-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200 : Shape := ⟨2, ![64, 200]⟩
abbrev S100000x256 : Shape := ⟨2, ![100000, 256]⟩
abbrev S50x128 : Shape := ⟨2, ![50, 128]⟩
abbrev S50x100000 : Shape := ⟨2, ![50, 100000]⟩
abbrev S50 : Shape := ⟨1, ![50]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50x128 : S_.BroadcastsInDim S50x128 (![] : Fin 0 → Fin S50x128.rank)
  reducesTo_S50x128_S_d0_1 : S50x128.ReducesTo [0, 1] S_
  bcast_S_S50x100000 : S_.BroadcastsInDim S50x100000 (![] : Fin 0 → Fin S50x100000.rank)
  reducesTo_S50x100000_S_d0_1 : S50x100000.ReducesTo [0, 1] S_
  bcast_S_S50 : S_.BroadcastsInDim S50 (![] : Fin 0 → Fin S50.rank)
  reducesTo_S50_S_d0 : S50.ReducesTo [0] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg0 : IVec S64x200 32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_c_6 : IVec S_ 32 := constantI S_ 32 0#32
  let main_v19 : IVec S64x200 32 := broadcastInDim S64x200 ![] bcast_S_S64x200 main_c_6
  let main_v20 : IVec S64x200 1 := cmpi .sge main_arg0 main_v19
  let main_c_7 : IVec S_ 32 := constantI S_ 32 100000#32
  let main_v21 : IVec S64x200 32 := broadcastInDim S64x200 ![] bcast_S_S64x200 main_c_7
  let main_v22 : IVec S64x200 1 := cmpi .slt main_arg0 main_v21
  let main_v23 : IVec S64x200 1 := andi main_v20 main_v22
  let main_c_8 : IVec S_ 1 := constantI S_ 1 1#1
  let main_v24 : IVec S_ 1 := (fun x v => Host.reduce IntOp.andi x v reducesTo_S64x200_S_d0_1 h_S_) main_v23 main_c_8
  let main_v25 : IVec S_ 1 := andi main_v18 main_v24
  main_v25

def fn {F : FTy → Type} [FloatOps F] (main_arg0 : IVec S64x200 32) (main_arg1 : FVec F S100000x256 .f32) (main_arg2 : FVec F S50x128 .f32) (main_arg3 : FVec F S50x100000 .f32) (main_arg4 : FVec F S50 .f32) : IVec S_ 1 :=
  let main_v0 : FVec F S100000x256 .f32 := Host.absf main_arg1
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50x128 .f32 := Host.absf main_arg2
  let main_cst_0 : FVec F S_ .f32 := constant S_ .f32 0x7F800000#32
  let main_v5 : FVec F S50x128 .f32 := broadcastInDim S50x128 ![] bcast_S_S50x128 main_cst_0
  let main_v6 : IVec S50x128 1 := cmpf .olt main_v4 main_v5
  let main_c_1 : IVec S_ 1 := constantI S_ 1 1#1
  let main_v7 : IVec S_ 1 := (fun x v => Host.reduce IntOp.andi x v reducesTo_S50x128_S_d0_1 h_S_) main_v6 main_c_1
  let main_v8 : IVec S_ 1 := andi main_v3 main_v7
  let main_v9 : FVec F S50x100000 .f32 := Host.absf main_arg3
  let main_cst_2 : FVec F S_ .f32 := constant S_ .f32 0x7F800000#32
  let main_v10 : FVec F S50x100000 .f32 := broadcastInDim S50x100000 ![] bcast_S_S50x100000 main_cst_2
  let main_v11 : IVec S50x100000 1 := cmpf .olt main_v9 main_v10
  let main_c_3 : IVec S_ 1 := constantI S_ 1 1#1
  let main_v12 : IVec S_ 1 := (fun x v => Host.reduce IntOp.andi x v reducesTo_S50x100000_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg0 main_v13 main_v16
-- ==== Kernel.lean ====
abbrev S64x200 : Shape := ⟨2, ![64, 200]⟩
abbrev S100000x256 : Shape := ⟨2, ![100000, 256]⟩
abbrev S50x128 : Shape := ⟨2, ![50, 128]⟩
abbrev S50x100000 : Shape := ⟨2, ![50, 100000]⟩
abbrev S50 : Shape := ⟨1, ![50]⟩
abbrev S12800 : Shape := ⟨1, ![12800]⟩
abbrev S100000x50 : Shape := ⟨2, ![100000, 50]⟩
abbrev S1x50 : Shape := ⟨2, ![1, 50]⟩
abbrev S100000x1x256 : Shape := ⟨3, ![100000, 1, 256]⟩
abbrev S100000x1x50 : Shape := ⟨3, ![100000, 1, 50]⟩
abbrev S12800x1x384 : Shape := ⟨3, ![12800, 1, 384]⟩
abbrev S1x1x256 : Shape := ⟨3, ![1, 1, 256]⟩
abbrev S1 : Shape := ⟨1, ![1]⟩
abbrev S1x1x50 : Shape := ⟨3, ![1, 1, 50]⟩
abbrev S1x1x384 : Shape := ⟨3, ![1, 1, 384]⟩
abbrev S1x256 : Shape := ⟨2, ![1, 256]⟩
abbrev S1x1 : Shape := ⟨2, ![1, 1]⟩
abbrev S1x128 : Shape := ⟨2, ![1, 128]⟩
abbrev S1x1x128 : Shape := ⟨3, ![1, 1, 128]⟩
abbrev S64x200x384 : Shape := ⟨3, ![64, 200, 384]⟩

abbrev nBuf : Space → Nat
  | .hbm => 11
  | .vmem => 8
  | .smem => 1
  | _ => 0

abbrev bufTy : (tb : Table) → Fin (tcTables nBuf tb) → BufTy
  | .hbm, ⟨0, _⟩ => ⟨S64x200, .i32⟩
  | .hbm, ⟨1, _⟩ => ⟨S100000x256, .f32⟩
  | .hbm, ⟨2, _⟩ => ⟨S50x128, .f32⟩
  | .hbm, ⟨3, _⟩ => ⟨S50x100000, .f32⟩
  | .hbm, ⟨4, _⟩ => ⟨S50, .f32⟩
  | .hbm, ⟨5, _⟩ => ⟨S100000x50, .f32⟩
  | .hbm, ⟨6, _⟩ => ⟨S1x50, .f32⟩
  | .hbm, ⟨7, _⟩ => ⟨S100000x1x256, .f32⟩
  | .hbm, ⟨8, _⟩ => ⟨S100000x1x50, .f32⟩
  | .hbm, ⟨9, _⟩ => ⟨S12800x1x384, .f32⟩
  | .hbm, ⟨10, _⟩ => ⟨S64x200x384, .f32⟩
  | .local _ .vmem, ⟨0, _⟩ => ⟨S1x1x256, .f32⟩
  | .local _ .vmem, ⟨1, _⟩ => ⟨S1x1x256, .f32⟩
  | .local _ .vmem, ⟨2, _⟩ => ⟨S1x1x50, .f32⟩
  | .local _ .vmem, ⟨3, _⟩ => ⟨S1x1x50, .f32⟩
  | .local _ .vmem, ⟨4, _⟩ => ⟨S50x128, .f32⟩
  | .local _ .vmem, ⟨5, _⟩ => ⟨S1x50, .f32⟩
  | .local _ .vmem, ⟨6, _⟩ => ⟨S1x1x384, .f32⟩
  | .local _ .vmem, ⟨7, _⟩ => ⟨S1x1x384, .f32⟩
  | .local _ .smem, ⟨0, _⟩ => ⟨S12800, .i32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12800], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S12800.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12800) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S12800.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12800) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x200_S12800 : S64x200.ShapeCasts S12800
  transposes_S50x100000_S100000x50_1_0 : S50x100000.Transposes [1, 0] S100000x50
  shapeCasts_S50_S1x50 : S50.ShapeCasts S1x50
  shapeCasts_S100000x256_S100000x1x256 : S100000x256.ShapeCasts S100000x1x256
  shapeCasts_S100000x50_S100000x1x50 : S100000x50.ShapeCasts S100000x1x50
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x50_S1x1x50_0_0_0 : ∀ a, (![0, 0, 0] : Fin 3 → Nat) a + S1x1x50.size a ≤ S1x1x50.size a
  h_S1x1x50 : 0 < S1x1x50.numel
  shapeCasts_S1x1x50_S1x50 : S1x1x50.ShapeCasts S1x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  reduces_S1x50_S1 : S1x50.Reduces [1] S1
  shapeCasts_S1_S1x1 : S1.ShapeCasts S1x1
  broadcasts_S1x1_S1x50 : S1x1.Broadcasts S1x50
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S1x1x384_S1x1x256_0_0_0 : ∀ a, (![0, 0, 0] : Fin 3 → Nat) a + S1x1x256.size a ≤ S1x1x384.size a
  shapeCasts_S1x256_S1x1x256 : S1x256.ShapeCasts S1x1x256
  inb_S1x1x384_S1x1x128_0_0_256 : ∀ a, (![0, 0, 256] : Fin 3 → Nat) a + S1x1x128.size a ≤ S1x1x384.size a
  h_S1x1x128 : 0 < S1x1x128.numel
  shapeCasts_S1x1x128_S1x128 : S1x1x128.ShapeCasts S1x128
  shapeCasts_S1x128_S1x1x128 : S1x128.ShapeCasts S1x1x128
  shapeCasts_S12800x1x384_S64x200x384 : S12800x1x384.ShapeCasts S64x200x384
  dot_S1x50_S50x128_S1x128_1_0_0_1_n_n_wf : DotDims.WF S1x50 S50x128 S1x128 [1] [0] [0] [1] [] []
  hrank0 : 0 < grid0.rank
  k0_off1_inb : ∀ i : grid0.Coords, ∀ a, (k0_off1 i) a + S1.size a ≤ S12800.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x384.size a ≤ S12800x1x384.size a
  hwx0_4 : ∀ i : grid0.Coords, EltTy.bits .f32 = 32 ∨ (Rect.block (s := S12800x1x384) S1x1x384.size (cc0_transform_4 i) (hinb0_4 i)).WholeWords (EltTy.packing .f32)

variable [Facts₀]

def dot_S1x50_S50x128_S1x128_1_0_0_1_n_n : DotDims S1x50 S50x128 S1x128 where
  lhsContracting := [1]
  rhsContracting := [0]
  lhsNonContracting := [0]
  rhsNonContracting := [1]
  lhsBatch := []
  rhsBatch := []
  wf := dot_S1x50_S50x128_S1x128_1_0_0_1_n_n_wf

abbrev spec0_0 : Pipeline.WinSpec sig grid0.rank :=
  Pipeline.WinSpec.ofSpec (Memref.whole main_v3) S1x1x256.size reads0_0 false false 2 stage0_0 sem0_0 nbuf0_0 hstage0_0

abbrev spec0_1 : Pipeline.WinSpec sig grid0.rank :=
  Pipeline.WinSpec.ofSpec (Memref.whole main_v4) S1x1x50.size reads0_1 false false 2 stage0_1 sem0_1 nbuf0_1 hstage0_1

abbrev spec0_2 : Pipeline.WinSpec sig grid0.rank :=
  Pipeline.WinSpec.ofSpec (Memref.whole main_arg2) S50x128.size reads0_2 false true 1 stage0_2 sem0_2 nbuf0_2 hstage0_2

abbrev spec0_3 : Pipeline.WinSpec sig grid0.rank :=
  Pipeline.WinSpec.ofSpec (Memref.whole main_v2) S1x50.size reads0_3 false true 1 stage0_3 sem0_3 nbuf0_3 hstage0_3

abbrev spec0_4 : Pipeline.WinSpec sig grid0.rank :=
  Pipeline.WinSpec.ofSpec (Memref.whole main_v5) S1x1x384.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S100000x1x256.size a), EltTy.bits .f32 = 32 ∨ (Rect.block (s := S100000x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x50.size a ≤ S100000x1x50.size a), EltTy.bits .f32 = 32 ∨ (Rect.block (s := S100000x1x50) S1x1x50.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x200 : Shape := ⟨2, ![64, 200]⟩
abbrev S100000x256 : Shape := ⟨2, ![100000, 256]⟩
abbrev S50x128 : Shape := ⟨2, ![50, 128]⟩
abbrev S50x100000 : Shape := ⟨2, ![50, 100000]⟩
abbrev S50 : Shape := ⟨1, ![50]⟩
abbrev S_ : Shape := ⟨0, ![]⟩
abbrev S64x200x1 : Shape := ⟨3, ![64, 200, 1]⟩
abbrev S64x200x256 : Shape := ⟨3, ![64, 200, 256]⟩
abbrev S100000x50 : Shape := ⟨2, ![100000, 50]⟩
abbrev S64x200x50 : Shape := ⟨3, ![64, 200, 50]⟩
abbrev S1x1x50 : Shape := ⟨3, ![1, 1, 50]⟩
abbrev S64x200x128 : Shape := ⟨3, ![64, 200, 128]⟩
abbrev S64x200x384 : Shape := ⟨3, ![64, 200, 384]⟩

abbrev nBuf : Space → Nat
  | .hbm => 43
  | .vmem => 0
  | .smem => 0
  | _ => 0

abbrev bufTy : (tb : Table) → Fin (tcTables nBuf tb) → BufTy
  | .hbm, ⟨0, _⟩ => ⟨S64x200, .i32⟩
  | .hbm, ⟨1, _⟩ => ⟨S100000x256, .f32⟩
  | .hbm, ⟨2, _⟩ => ⟨S50x128, .f32⟩
  | .hbm, ⟨3, _⟩ => ⟨S50x100000, .f32⟩
  | .hbm, ⟨4, _⟩ => ⟨S50, .f32⟩
  | .hbm, ⟨5, _⟩ => ⟨S_, .i32⟩
  | .hbm, ⟨6, _⟩ => ⟨S64x200, .i32⟩
  | .hbm, ⟨7, _⟩ => ⟨S64x200, .i1⟩
  | .hbm, ⟨8, _⟩ => ⟨S_, .i32⟩
  | .hbm, ⟨9, _⟩ => ⟨S64x200, .i32⟩
  | .hbm, ⟨10, _⟩ => ⟨S64x200, .i32⟩
  | .hbm, ⟨11, _⟩ => ⟨S64x200, .i32⟩
  | .hbm, ⟨12, _⟩ => ⟨S64x200x1, .i32⟩
  | .hbm, ⟨13, _⟩ => ⟨S64x200x256, .f32⟩
  | .hbm, ⟨14, _⟩ => ⟨S100000x50, .f32⟩
  | .hbm, ⟨15, _⟩ => ⟨S_, .i32⟩
  | .hbm, ⟨16, _⟩ => ⟨S64x200, .i32⟩
  | .hbm, ⟨17, _⟩ => ⟨S64x200, .i1⟩
  | .hbm, ⟨18, _⟩ => ⟨S_, .i32⟩
  | .hbm, ⟨19, _⟩ => ⟨S64x200, .i32⟩
  | .hbm, ⟨20, _⟩ => ⟨S64x200, .i32⟩
  | .hbm, ⟨21, _⟩ => ⟨S64x200, .i32⟩
  | .hbm, ⟨22, _⟩ => ⟨S64x200x1, .i32⟩
  | .hbm, ⟨23, _⟩ => ⟨S64x200x50, .f32⟩
  | .hbm, ⟨24, _⟩ => ⟨S1x1x50, .f32⟩
  | .hbm, ⟨25, _⟩ => ⟨S64x200x50, .f32⟩
  | .hbm, ⟨26, _⟩ => ⟨S64x200x50, .f32⟩
  | .hbm, ⟨27, _⟩ => ⟨S_, .f32⟩
  | .hbm, ⟨28, _⟩ => ⟨S64x200, .f32⟩
  | .hbm, ⟨29, _⟩ => ⟨S_, .f32⟩
  | .hbm, ⟨30, _⟩ => ⟨S64x200, .f32⟩
  | .hbm, ⟨31, _⟩ => ⟨S64x200, .f32⟩
  | .hbm, ⟨32, _⟩ => ⟨S64x200x1, .f32⟩
  | .hbm, ⟨33, _⟩ => ⟨S64x200x50, .f32⟩
  | .hbm, ⟨34, _⟩ => ⟨S64x200x50, .f32⟩
  | .hbm, ⟨35, _⟩ => ⟨S64x200x50, .f32⟩
  | .hbm, ⟨36, _⟩ => ⟨S_, .f32⟩
  | .hbm, ⟨37, _⟩ => ⟨S64x200, .f32⟩
  | .hbm, ⟨38, _⟩ => ⟨S64x200x1, .f32⟩
  | .hbm, ⟨39, _⟩ => ⟨S64x200x50, .f32⟩
  | .hbm, ⟨40, _⟩ => ⟨S64x200x50, .f32⟩
  | .hbm, ⟨41, _⟩ => ⟨S64x200x128, .f32⟩
  | .hbm, ⟨42, _⟩ => ⟨S64x200x384, .f32⟩
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S64x200 : S_.BroadcastsInDim S64x200 (![] : Fin 0 → Fin S64x200.rank)
  bcast_S64x200_S64x200x1_0_1 : S64x200.BroadcastsInDim S64x200x1 (![0, 1] : Fin 2 → Fin S64x200x1.rank)
  transposes_S50x100000_S100000x50_1_0 : S50x100000.Transposes [1, 0] S100000x50
  bcast_S50_S1x1x50_2 : S50.BroadcastsInDim S1x1x50 (![2] : Fin 1 → Fin S1x1x50.rank)
  bcast_S1x1x50_S64x200x50_0_1_2 : S1x1x50.BroadcastsInDim S64x200x50 (![0, 1, 2] : Fin 3 → Fin S64x200x50.rank)
  reducesTo_S64x200x50_S64x200_d2 : S64x200x50.ReducesTo [2] S64x200
  h_S_ : 0 < S_.numel
  bcast_S64x200x1_S64x200x50_0_1_2 : S64x200x1.BroadcastsInDim S64x200x50 (![0, 1, 2] : Fin 3 → Fin S64x200x50.rank)
  concatenates_S64x200x256_S64x200x128_S64x200x384_d2 : Shape.Concatenates [S64x200x256, S64x200x128] S64x200x384 2
  gather_S100000x256_S64x200x1_S64x200x256_2_0_n_n_0_2_1256_wf : GatherDims.WF S100000x256 S64x200x1 S64x200x256 [2] [0] [] [0] [] 2 ![1, 256]
  gather_S100000x50_S64x200x1_S64x200x50_2_0_n_n_0_2_150_wf : GatherDims.WF S100000x50 S64x200x1 S64x200x50 [2] [0] [] [0] [] 2 ![1, 50]
  dot_S64x200x50_S50x128_S64x200x128_2_0_01_1_n_n_wf : DotDims.WF S64x200x50 S50x128 S64x200x128 [2] [0] [0, 1] [1] [] []

variable [Facts₀]

def gather_S100000x256_S64x200x1_S64x200x256_2_0_n_n_0_2_1256 : GatherDims S100000x256 S64x200x1 S64x200x256 where
  offsetDims := [2]
  collapsedSliceDims := [0]
  operandBatchingDims := []
  startIndicesBatchingDims := []
  startIndexMap := [0]
  indexVectorDim := 2
  sliceSizes := ![1, 256]
  wf := gather_S100000x256_S64x200x1_S64x200x256_2_0_n_n_0_2_1256_wf
def gather_S100000x50_S64x200x1_S64x200x50_2_0_n_n_0_2_150 : GatherDims S100000x50 S64x200x1 S64x200x50 where
  offsetDims := [2]
  collapsedSliceDims := [0]
  operandBatchingDims := []
  startIndicesBatchingDims := []
  startIndexMap := [0]
  indexVectorDim := 2
  sliceSizes := ![1, 50]
  wf := gather_S100000x50_S64x200x1_S64x200x50_2_0_n_n_0_2_150_wf
def dot_S64x200x50_S50x128_S64x200x128_2_0_01_1_n_n : DotDims S64x200x50 S50x128 S64x200x128 where
  lhsContracting := [2]
  rhsContracting := [0]
  lhsNonContracting := [0, 1]
  rhsNonContracting := [1]
  lhsBatch := []
  rhsBatch := []
  wf := dot_S64x200x50_S50x128_S64x200x128_2_0_01_1_n_n_wf

class Facts : Prop extends Facts₀ where

variable [Facts]
-- ==== Proof.LibWordRange.lean ====
/-
  A 32-bit word compared as a signed integer against 0 from below and against a small bound n from above, both
  comparisons holding, is a natural number below n when read unsigned: a word in [0, n) has its sign bit clear, so
  its signed and unsigned readings are the same number.
-/
import Idealize.ShloMosaic.Lib.Affine

namespace Cert.Lib

open Idealize.ShloMosaic

/-- A word that is at least 0 and below `n` as a signed integer, `n` below 2³¹, is below `n` as a natural number. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have g0 : (0#32 : BitVec 32).toInt ≤ w.toInt := IntOp.cmpi_sge.1 h0
  have g1 : w.toInt < (BitVec.ofNat 32 n).toInt := IntOp.cmpi_slt.1 h1
  have z : (0#32 : BitVec 32).toInt = 0 := by decide
  have en : (BitVec.ofNat 32 n).toInt = n := by
    rw [BitVec.toInt_eq_toNat_cond, BitVec.toNat_ofNat]
    have : n % 2 ^ 32 = n := Nat.mod_eq_of_lt (by omega)
    rw [this]
    split <;> omega
  have e := BitVec.toInt_eq_toNat_cond w
  have hw := w.isLt
  rw [z] at g0
  rw [en] at g1
  split at e <;> omega

/-- Such a word read as a signed integer and then as a natural number is its unsigned value. -/
theorem toInt_toNat_of_lt (w : BitVec 32) (h : w.toNat < 2 ^ 31) : w.toInt.toNat = w.toNat := by
  have e := BitVec.toInt_eq_toNat_cond w
  split at e <;> omega

/-- Such a word is not negative as a signed integer. -/
theorem not_slt_zero_of_lt (w : BitVec 32) (h : w.toNat < 2 ^ 31) : IntOp.cmpi .slt w 0#32 = 0#1 := by
  have hn : ¬ IntOp.cmpi .slt w 0#32 = 1#1 := by
    rw [IntOp.cmpi_slt]
    have z : (0#32 : BitVec 32).toInt = 0 := by decide
    have e := BitVec.toInt_eq_toNat_cond w
    rw [z]
    split at e <;> omega
  rcases BitVec.eq_zero_or_eq_one (IntOp.cmpi .slt w 0#32) with h0 | h1
  · exact h0
  · exact absurd h1 hn

end Cert.Lib
-- ==== Proof.IdsRange.lean ====
/-
  What the precondition says of the ids. Its last conjunct is "every id is at least 0 and below 100000", spelt
  as the conjunction over all 64 × 200 positions of two signed comparisons. Where the precondition holds, each id,
  read as an unsigned number, is therefore below 100000: it names a row of the two tables it indexes.
-/
import proofs.«424275_j25623774888460_2_alg».proof.Pre_finite_inputs
import proofs.«424275_j25623774888460_2_alg».proof.Proof.LibWordRange
import Idealize.ShloMosaic.Lib.ReduceAll
import Idealize.ShloMosaic.Lib.ValueIdx

namespace Cert.HierEmbed

open Idealize.ShloMosaic Idealize.ShloMosaic.ValueIdx

/-- The scalar shape has one index. -/
instance : Subsingleton Cert.Pre_finite_inputs.S_.Idx := ⟨fun a b => funext fun d => d.elim0⟩

/-- Where the precondition holds of the five arguments, every id is below 100000 as a natural number. -/
theorem ids_lt [Cert.Pre_finite_inputs.Facts] {F : FTy → Type} [FloatOps F]
    (a0 : IVec Cert.Pre_finite_inputs.S64x200 32) (a1 : FVec F Cert.Pre_finite_inputs.S100000x256 .f32)
    (a2 : FVec F Cert.Pre_finite_inputs.S50x128 .f32) (a3 : FVec F Cert.Pre_finite_inputs.S50x100000 .f32)
    (a4 : FVec F Cert.Pre_finite_inputs.S50 .f32)
    (h : Cert.Pre_finite_inputs.fn (F := F) a0 a1 a2 a3 a4 = fun _ => 1#1) (i : Cert.Pre_finite_inputs.S64x200.Idx) :
    (a0 i).toNat < 100000 := by
  have e := congrFun h ix0
  dsimp only [Cert.Pre_finite_inputs.fn, Cert.Pre_finite_inputs.fn_part1] at e
  have e2 := (IntOp.andi_eq_one.1 e).2
  have e3 := Host.reduce_andi_all _ _ _ _ _ e2 i
  obtain ⟨h0, h1⟩ := IntOp.andi_eq_one.1 e3
  exact Cert.Lib.toNat_lt_of_signed_range (a0 i) 100000 (by decide) h0 h1

end Cert.HierEmbed
-- ==== Proof.OkKernel.lean ====
/-
  The pipeline's side condition holds where the precondition does. Two windows are indexed through the table of
  ids: at grid point t the first fetches block (id t, 0, 0) of the [100000, 1, 256] location table and the second
  block (id t, 0, 0) of the [100000, 1, 50] transposed weights, the blocks being single rows. The table the index
  maps read is the [64, 200] array of ids laid out flat, so each of its words is one of the ids, which the
  precondition puts in [0, 100000): every such block lies inside its array.
-/
import proofs.«424275_j25623774888460_2_alg».proof.Defs
import proofs.«424275_j25623774888460_2_alg».proof.Proof.Gen.Kernel.Frame
import proofs.«424275_j25623774888460_2_alg».proof.Proof.Gen.Pre_finite_inputs
import proofs.«424275_j25623774888460_2_alg».proof.Proof.IdsRange
import Idealize.ShloMosaic.Lib.StableHlo.Run

set_option maxRecDepth 16384

noncomputable section

namespace Cert.Kernel.OkOfPre

open Cert.Kernel Cert.Kernel.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The table the index maps read is the array of ids in row-major order. -/
theorem tbl_eq : tbl m 0 = shapeCast S12800 (m (((0 : Dev nD) : Thread nD τ).loc main_arg0)) shapeCasts_S64x200_S12800 := by
  unfold tbl
  show StableHlo.after hostOps0 (fun b => m ((0 : Dev nD), b)) (Proc.devRef .tc main_v0) = _
  after_results
  rfl

/-- So where every id is below 100000, every word of the table is. -/
theorem tbl_lt (hids : ∀ i, (m (((0 : Dev nD) : Thread nD τ).loc main_arg0) i).toNat < 100000) (x : S12800.Idx) :
    (tbl m 0 x).toNat < 100000 := by
  rw [tbl_eq]
  exact hids _

/-- Where every id is below 100000, both table-indexed windows have every block inside their arrays. -/
theorem ok_of_ids (hids : ∀ i, (m (((0 : Dev nD) : Thread nD τ).loc main_arg0) i).toNat < 100000) : Ok m := by
  refine ⟨fun i => ?_, fun i => ?_⟩
  · obtain ⟨w, hw, e⟩ : ∃ w : BitVec 32, w.toNat < 100000 ∧ cc0_transform_0 k0_off1_inb numel1_S1 (tbl m) i = ![w.toNat, 0, 0] :=
      ⟨_, tbl_lt m hids _, rfl⟩
    refine ⟨fun a => ?_, Or.inl rfl⟩
    rw [e]
    fin_cases a <;> simp [S1x1x256, S100000x1x256] <;> omega
  · obtain ⟨w, hw, e⟩ : ∃ w : BitVec 32, w.toNat < 100000 ∧ cc0_transform_1 k0_off1_inb numel1_S1 (tbl m) i = ![w.toNat, 0, 0] :=
      ⟨_, tbl_lt m hids _, rfl⟩
    refine ⟨fun a => ?_, Or.inl rfl⟩
    rw [e]
    fin_cases a <;> simp [S1x1x50, S100000x1x50] <;> omega

end Cert.Kernel.OkOfPre

end
-- ==== Proof.OkKernelIdeal.lean ====
/-
  The pipeline's side condition holds where the precondition does. Two windows are indexed through the table of
  ids: at grid point t the first fetches block (id t, 0, 0) of the [100000, 1, 256] location table and the second
  block (id t, 0, 0) of the [100000, 1, 50] transposed weights, the blocks being single rows. The table the index
  maps read is the [64, 200] array of ids laid out flat, so each of its words is one of the ids, which the
  precondition puts in [0, 100000): every such block lies inside its array.
-/
import proofs.«424275_j25623774888460_2_alg».proof.Defs
import proofs.«424275_j25623774888460_2_alg».proof.Proof.Gen.KernelIdeal.Frame
import proofs.«424275_j25623774888460_2_alg».proof.Proof.Gen.Pre_finite_inputs
import proofs.«424275_j25623774888460_2_alg».proof.Proof.IdsRange
import Idealize.ShloMosaic.Lib.StableHlo.Run

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The table the index maps read is the array of ids in row-major order. -/
theorem tbl_eq : tbl m 0 = shapeCast S12800 (m (((0 : Dev nD) : Thread nD τ).loc main_arg0)) shapeCasts_S64x200_S12800 := by
  unfold tbl
  show StableHlo.after hostOps0 (fun b => m ((0 : Dev nD), b)) (Proc.devRef .tc main_v0) = _
  after_results
  rfl

/-- So where every id is below 100000, every word of the table is. -/
theorem tbl_lt (hids : ∀ i, (m (((0 : Dev nD) : Thread nD τ).loc main_arg0) i).toNat < 100000) (x : S12800.Idx) :
    (tbl m 0 x).toNat < 100000 := by
  rw [tbl_eq]
  exact hids _

/-- Where every id is below 100000, both table-indexed windows have every block inside their arrays. -/
theorem ok_of_ids (hids : ∀ i, (m (((0 : Dev nD) : Thread nD τ).loc main_arg0) i).toNat < 100000) : Ok m := by
  refine ⟨fun i => ?_, fun i => ?_⟩
  · obtain ⟨w, hw, e⟩ : ∃ w : BitVec 32, w.toNat < 100000 ∧ cc0_transform_0 k0_off1_inb numel1_S1 (tbl m) i = ![w.toNat, 0, 0] :=
      ⟨_, tbl_lt m hids _, rfl⟩
    refine ⟨fun a => ?_, Or.inl rfl⟩
    rw [e]
    fin_cases a <;> simp [S1x1x256, S100000x1x256] <;> omega
  · obtain ⟨w, hw, e⟩ : ∃ w : BitVec 32, w.toNat < 100000 ∧ cc0_transform_1 k0_off1_inb numel1_S1 (tbl m) i = ![w.toNat, 0, 0] :=
      ⟨_, tbl_lt m hids _, rfl⟩
    refine ⟨fun a => ?_, Or.inl rfl⟩
    rw [e]
    fin_cases a <;> simp [S1x1x50, S100000x1x50] <;> omega

end Cert.KernelIdeal.OkOfPre

end
-- ==== Proof.Spec.lean ====
/-
  The function both programs compute, index by index on the extended reals.

  For a position (p, q) of the [64, 200] array of ids let r be the table row the id names. The result row of
  length 384 is two pieces side by side. Lanes 0 … 255 are row r of the [100000, 256] location table. Lanes
  256 … 383 are a mixture of the 50 rows of the [50, 128] cluster table: with logits
  l k = W (k, r) + b k for k < 50, the weights are the softmax of l taken with its maximum subtracted,
  w k = exp (l k − max l) / Σ k' exp (l k' − max l), and lane 256 + d holds Σ k, w k · C (k, d).

  The row an id names is its unsigned value capped at the last row, so the function is total; where every id
  lies in [0, 100000) the cap does not bind.
-/
import Idealize.ShloMosaic.PureOps.Ideal
import Idealize.ShloMosaic.PureOps.Ideal.Laws
import Idealize.ShloMosaic.Lib.ValueIdx

noncomputable section

open scoped BigOperators

namespace Cert.HierEmbed

open Idealize.ShloMosaic Idealize.ShloMosaic.ValueIdx

/-- The ids, the location table, the cluster table, the logit weights, the bias and the result. -/
abbrev SIds : Shape := ⟨2, ![64, 200]⟩
abbrev STab : Shape := ⟨2, ![100000, 256]⟩
abbrev SClu : Shape := ⟨2, ![50, 128]⟩
abbrev SWgt : Shape := ⟨2, ![50, 100000]⟩
abbrev SBias : Shape := ⟨1, ![50]⟩
abbrev SOut : Shape := ⟨3, ![64, 200, 384]⟩

/-- The table row an id word names: its unsigned value, capped at the last row. -/
def rowOf (w : BitVec 32) : Fin 100000 := ⟨min w.toNat 99999, by omega⟩

/-- An id below the row count names the row of its own value. -/
theorem rowOf_val {w : BitVec 32} (h : w.toNat < 100000) : (rowOf w).val = w.toNat := by
  show min w.toNat 99999 = w.toNat
  omega

/-- Negative infinity, as the word both programs start their maximum from. -/
theorem ofBits_negInf : Ideal.ofBits .f32 0xFF800000#32 = (⊥ : EReal) := by
  simp [Ideal.ofBits, Ideal.ieee]

/-- The 50 logits of table row r. -/
def logit (W : SWgt.Idx → EReal) (b : SBias.Idx → EReal) (r : Fin 100000) (k : Fin 50) : EReal :=
  W (ix2 k r) + b (ix1 k)

/-- The largest of 50 values, folded from negative infinity. -/
def rowMax (l : Fin 50 → EReal) : EReal :=
  (Finset.univ : Finset (Fin 50)).fold max (Ideal.ofBits .f32 0xFF800000#32) l

/-- A value's exponential after the maximum is subtracted. -/
def shifted (l : Fin 50 → EReal) (k : Fin 50) : EReal := Ideal.exp (l k - rowMax l)

/-- The softmax weight of entry k. -/
def weight (l : Fin 50 → EReal) (k : Fin 50) : EReal :=
  Ideal.div (shifted l k) (∑ k' : Fin 50, shifted l k')

/-- Lane d of the mixture of the cluster table's rows under the softmax weights of l. -/
def mixture (C : SClu.Idx → EReal) (l : Fin 50 → EReal) (d : Fin 128) : EReal :=
  ∑ k : Fin 50, weight l k * C (ix2 k d)

/-- The result: the table row, then the mixture. -/
def G (ids : SIds.Idx → BitVec 32) (T : STab.Idx → EReal) (C : SClu.Idx → EReal) (W : SWgt.Idx → EReal)
    (b : SBias.Idx → EReal) : SOut.Idx → EReal := fun i =>
  if h : (i 2).val < 256 then T (ix2 (rowOf (ids (ix2 (i 0) (i 1)))) ⟨(i 2).val, h⟩)
  else mixture C (logit W b (rowOf (ids (ix2 (i 0) (i 1))))) ⟨(i 2).val - 256, by have h2 : (i 2).val < 384 := (i 2).isLt; omega⟩

/-- A lane of the first piece. -/
theorem G_fine (ids : SIds.Idx → BitVec 32) (T : STab.Idx → EReal) (C : SClu.Idx → EReal) (W : SWgt.Idx → EReal)
    (b : SBias.Idx → EReal) (p : Fin 64) (q : Fin 200) (j : Fin 384) (h : j.val < 256) :
    G ids T C W b (ix3 p q j) = T (ix2 (rowOf (ids (ix2 p q))) ⟨j.val, h⟩) := by
  unfold G
  rw [dif_pos (show ((ix3 p q j : SOut.Idx) 2).val < 256 from h)]

/-- A lane of the second piece. -/
theorem G_coarse (ids : SIds.Idx → BitVec 32) (T : STab.Idx → EReal) (C : SClu.Idx → EReal) (W : SWgt.Idx → EReal)
    (b : SBias.Idx → EReal) (p : Fin 64) (q : Fin 200) (j : Fin 384) (h : ¬ j.val < 256) :
    G ids T C W b (ix3 p q j)
      = mixture C (logit W b (rowOf (ids (ix2 p q)))) ⟨j.val - 256, by have := j.isLt; omega⟩ := by
  unfold G
  rw [dif_neg (show ¬ ((ix3 p q j : SOut.Idx) 2).val < 256 from h)]

end Cert.HierEmbed

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.Payload.lean ====
/-
  The two values the kernel's body stores, read at a lane, as functions of the blocks it loads.

  The first is the loaded [1, 1, 256] table row cast to [1, 256] and back: the row itself.

  The second starts from the logits l k = (weight row entry k) + (bias entry k), k < 50, held as a one-row array
  [1, 50]. Their maximum over the row, folded from negative infinity, is kept as a column and spread back along the
  row; the logits less it are exponentiated; the exponentials' sum over the row, kept and spread the same way, divides
  them: the softmax weights w k = exp (l k − max l) / Σ k' exp (l k' − max l). On the extended reals the narrowing of
  both product operands changes nothing, so the [1, 50] × [50, 128] product accumulated into zero reads, at column d,
  Σ k, w k · C (k, d), which the last cast to [1, 1, 128] keeps lane by lane: the mixture of the cluster block's rows.
-/
import proofs.«424275_j25623774888460_2_alg».proof.Proof.Gen.KernelIdeal.Skeleton
import proofs.«424275_j25623774888460_2_alg».proof.Proof.Spec
import proofs.«424275_j25623774888460_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.HierEmbed.Body

open Cert.KernelIdeal Cert.KernelIdeal.Gen
open Idealize.ShloMosaic Idealize.ShloMosaic.ValueIdx

/-- The first stored value is the loaded table row, lane by lane. -/
theorem pay1_apply (v0 : Vec Ideal S1x1x256 .f32) (j : Fin 256) :
    k0_pay1 (F := Ideal) v0 (ix3 (0 : Fin 1) (0 : Fin 1) j) = v0 (ix3 (0 : Fin 1) (0 : Fin 1) j) := by
  unfold k0_pay1
  exact congrFun (shapeCast_shapeCast v0 _ _) _

/-- The index a reduction over the columns of a one-row array inserts column k at is (0, k). -/
theorem lift_row (h : S1x50.Reduces [1] S1) (k : Fin 50) : h.lift (ix1 (0 : Fin 1)) k = ix2 (0 : Fin 1) k := by
  funext a
  match a with
  | ⟨0, _⟩ => rfl
  | ⟨1, _⟩ => rfl

/-- The maximum over the columns of a one-row array whose entries are l, from negative infinity's word. -/
theorem max_apply (x : FVec Ideal S1x50 .f32) (l : Fin 50 → EReal) (hx : ∀ k, x (ix2 (0 : Fin 1) k) = l k)
    (h : S1x50.Reduces [1] S1) (hφ : FKind.Formats .f32) (hacc : (0xFF800000#32 : BitVec 32) = FKind.maximumf.neutral .f32 hφ) :
    multiReduction (F := Ideal) .maximumf [1] S1 x 0xFF800000#32 h hφ hacc (ix1 (0 : Fin 1)) = rowMax l := by
  rw [Ideal.multiReduction_maximumf_single]
  unfold rowMax
  refine congrArg (fun f => (Finset.univ : Finset (Fin 50)).fold max (Ideal.ofBits .f32 0xFF800000#32) f) ?_
  funext k
  show x (h.lift (ix1 (0 : Fin 1)) k) = l k
  rw [lift_row h k]
  exact hx k

/-- The sum over the columns of a one-row array whose entries are e, from zero's word. -/
theorem sum_apply (x : FVec Ideal S1x50 .f32) (e : Fin 50 → EReal) (hx : ∀ k, x (ix2 (0 : Fin 1) k) = e k)
    (h : S1x50.Reduces [1] S1) (hφ : FKind.Formats .f32) (hacc : (0x00000000#32 : BitVec 32) = FKind.add.neutral .f32 hφ) :
    multiReduction (F := Ideal) .add [1] S1 x 0x00000000#32 h hφ hacc (ix1 (0 : Fin 1)) = ∑ k : Fin 50, e k := by
  rw [Ideal.multiReduction_add_single]
  refine Finset.sum_congr rfl fun k _ => ?_
  rw [lift_row h k]
  exact hx k

/-- Entries l less a one-entry vector holding their maximum, kept as a column and spread along the row, then
    exponentiated: the shifted exponentials. -/
theorem shifted_apply (x : FVec Ideal S1x50 .f32) (l : Fin 50 → EReal) (hx : ∀ k, x (ix2 (0 : Fin 1) k) = l k)
    (m : FVec Ideal S1 .f32) (hm : m (ix1 (0 : Fin 1)) = rowMax l) (k : Fin 50) :
    exp (subf x (broadcastTo S1x50 (shapeCast S1x1 m shapeCasts_S1_S1x1) broadcasts_S1x1_S1x50)) (ix2 (0 : Fin 1) k)
      = shifted l k := by
  show Ideal.exp (x (ix2 (0 : Fin 1) k)
      - broadcastTo S1x50 (shapeCast S1x1 m shapeCasts_S1_S1x1) broadcasts_S1x1_S1x50 (ix2 (0 : Fin 1) k)) = _
  rw [Cert.Lib.keepdims_apply m shapeCasts_S1_S1x1 broadcasts_S1x1_S1x50 0 k, hx k, hm]
  rfl

/-- The shifted exponentials over a one-entry vector holding their sum, kept as a column and spread along the row:
    the softmax weights. -/
theorem weight_apply (e : FVec Ideal S1x50 .f32) (l : Fin 50 → EReal) (he : ∀ k, e (ix2 (0 : Fin 1) k) = shifted l k)
    (s : FVec Ideal S1 .f32) (hs : s (ix1 (0 : Fin 1)) = ∑ k : Fin 50, shifted l k) (k : Fin 50) :
    divf e (broadcastTo S1x50 (shapeCast S1x1 s shapeCasts_S1_S1x1) broadcasts_S1x1_S1x50) (ix2 (0 : Fin 1) k)
      = weight l k := by
  show Ideal.div (e (ix2 (0 : Fin 1) k))
      (broadcastTo S1x50 (shapeCast S1x1 s shapeCasts_S1_S1x1) broadcasts_S1x1_S1x50 (ix2 (0 : Fin 1) k)) = _
  rw [Cert.Lib.keepdims_apply s shapeCasts_S1_S1x1 broadcasts_S1x1_S1x50 0 k, he k, hs]
  rfl

/-- The product's left operand is read at the result's row … -/
theorem lhs_dot_0 (i : S1x128.Idx) (q : dot_S1x50_S50x128_S1x128_1_0_0_1_n_n.contr.Idx) :
    (dot_S1x50_S50x128_S1x128_1_0_0_1_n_n.lhsIdx i q 0).val = (i 0).val := by
  unfold DotDims.lhsIdx
  rw [dif_neg (show ¬(0 : Fin S1x50.rank) ∈ dot_S1x50_S50x128_S1x128_1_0_0_1_n_n.lhsBatch by decide), dif_pos (show (0 : Fin S1x50.rank) ∈ dot_S1x50_S50x128_S1x128_1_0_0_1_n_n.lhsNonContracting by decide)]
  rfl
/-- … and at the summation index; -/
theorem lhs_dot_1 (i : S1x128.Idx) (q : dot_S1x50_S50x128_S1x128_1_0_0_1_n_n.contr.Idx) :
    (dot_S1x50_S50x128_S1x128_1_0_0_1_n_n.lhsIdx i q 1).val = (q ⟨0, by decide⟩).val :=
  dot_S1x50_S50x128_S1x128_1_0_0_1_n_n.lhsIdx_val_of_single rfl i q
/-- the right operand at the summation index … -/
theorem rhs_dot_0 (i : S1x128.Idx) (q : dot_S1x50_S50x128_S1x128_1_0_0_1_n_n.contr.Idx) :
    (dot_S1x50_S50x128_S1x128_1_0_0_1_n_n.rhsIdx i q 0).val = (q ⟨0, by decide⟩).val :=
  dot_S1x50_S50x128_S1x128_1_0_0_1_n_n.rhsIdx_val_of_single rfl i q
/-- … and at the result's column. -/
theorem rhs_dot_1 (i : S1x128.Idx) (q : dot_S1x50_S50x128_S1x128_1_0_0_1_n_n.contr.Idx) :
    (dot_S1x50_S50x128_S1x128_1_0_0_1_n_n.rhsIdx i q 1).val = (i 1).val := by
  unfold DotDims.rhsIdx
  rw [dif_neg (show ¬(1 : Fin S50x128.rank) ∈ dot_S1x50_S50x128_S1x128_1_0_0_1_n_n.rhsBatch by decide), dif_pos (show (1 : Fin S50x128.rank) ∈ dot_S1x50_S50x128_S1x128_1_0_0_1_n_n.rhsNonContracting by decide)]
  rfl

/-- A one-row array times a matrix, accumulated into zero: at column d the sum over k of the row's entry k times the
    matrix's entry (k, d). -/
theorem dot_apply (w : FVec Ideal S1x50 .bf16) (c : FVec Ideal S50x128 .bf16) (d : Fin 128) :
    matmul dot_S1x50_S50x128_S1x128_1_0_0_1_n_n none w c (constant S1x128 .f32 0x00000000#32) (ix2 (0 : Fin 1) d)
      = ∑ k : Fin 50, w (ix2 (0 : Fin 1) k) * c (ix2 k d) := by
  simp only [matmul]
  rw [Ideal.matmul_constant_zero_apply, ← Equiv.sum_comp (ValueIdx.contrEquiv1 dot_S1x50_S50x128_S1x128_1_0_0_1_n_n 50 rfl rfl).symm]
  refine Finset.sum_congr rfl fun k _ => ?_
  have hk := ValueIdx.contrEquiv1_symm_val dot_S1x50_S50x128_S1x128_1_0_0_1_n_n 50 rfl rfl k
  have el : dot_S1x50_S50x128_S1x128_1_0_0_1_n_n.lhsIdx (ix2 (0 : Fin 1) d) ((ValueIdx.contrEquiv1 dot_S1x50_S50x128_S1x128_1_0_0_1_n_n 50 rfl rfl).symm k) = ix2 (0 : Fin 1) k := funext fun a => Fin.ext (by
    match a with
    | ⟨0, _⟩ => exact lhs_dot_0 _ _
    | ⟨1, _⟩ => exact (lhs_dot_1 _ _).trans hk)
  have er : dot_S1x50_S50x128_S1x128_1_0_0_1_n_n.rhsIdx (ix2 (0 : Fin 1) d) ((ValueIdx.contrEquiv1 dot_S1x50_S50x128_S1x128_1_0_0_1_n_n 50 rfl rfl).symm k) = ix2 k d := funext fun a => Fin.ext (by
    match a with
    | ⟨0, _⟩ => exact (rhs_dot_0 _ _).trans hk
    | ⟨1, _⟩ => exact rhs_dot_1 _ _)
  rw [el, er]

/-- The second stored value at lane d is the mixture of the cluster block's rows under the softmax weights of
    the logits "weight row entry plus bias entry". -/
theorem pay2_apply (v2 : Vec Ideal S1x1x50 .f32) (v4 : Vec Ideal S1x50 .f32) (v17 : Vec Ideal S50x128 .f32) (d : Fin 128) :
    k0_pay2 (F := Ideal) v2 v4 v17 (ix3 (0 : Fin 1) (0 : Fin 1) d)
      = Cert.HierEmbed.mixture v17 (fun k : Fin 50 => v2 (ix3 (0 : Fin 1) (0 : Fin 1) k) + v4 (ix2 (0 : Fin 1) k)) d := by
  have h6 : ∀ k : Fin 50, (addf (shapeCast S1x50 v2 shapeCasts_S1x1x50_S1x50) (shapeCast S1x50 v4 shapeCasts_S1x50_S1x50) : FVec Ideal S1x50 .f32)
      (ix2 (0 : Fin 1) k) = v2 (ix3 (0 : Fin 1) (0 : Fin 1) k) + v4 (ix2 (0 : Fin 1) k) := fun k => by
    rw [addf_apply, shapeCast_1ab_ab_apply, shapeCast_self]
  unfold k0_pay2
  refine (shapeCast_ab_1ab_apply _ shapeCasts_S1x128_S1x1x128 0 0 d).trans ?_
  refine (dot_apply _ _ d).trans ?_
  unfold mixture
  refine Finset.sum_congr rfl fun k _ => ?_
  refine congrArg (· * v17 (ix2 k d)) ?_
  refine weight_apply _ _ (fun k' => shifted_apply _ _ h6 _ (max_apply _ _ h6 _ _ _) k') _ (sum_apply _ _ (fun k' => shifted_apply _ _ h6 _ (max_apply _ _ h6 _ _ _) k') _ _ _) k

end Cert.HierEmbed.Body

end
-- ==== Proof.BodyOut.lean ====
/-
  What the body leaves in the output block, as one function of the four blocks it loads.

  The body stores twice into the [1, 1, 384] output block: the loaded table row into lanes 0 … 255 and the
  mixture into lanes 256 … 383. The two stored rectangles are disjoint and together fill the block, so the
  block's final contents are, lane by lane, the row below lane 256 and the mixture from lane 256 on: one
  function `Blk` of the row block, the weight block, the cluster block and the bias block.
-/
import proofs.«424275_j25623774888460_2_alg».proof.Proof.Gen.KernelIdeal.Frame
import proofs.«424275_j25623774888460_2_alg».proof.Proof.Payload
import proofs.«424275_j25623774888460_2_alg».proof.Proof.Spec
import Idealize.ShloMosaic.Lib.Pipeline.Value
import Idealize.ShloMosaic.Lib.ValueIdx

set_option maxRecDepth 16384

noncomputable section

namespace Cert.HierEmbed.Body

open Cert.KernelIdeal Cert.KernelIdeal.Gen
open Idealize.ShloMosaic Idealize.ShloMosaic.TcCoe Idealize.ShloMosaic.Tactic Idealize.SL.Sem Idealize.ShloMosaic.ValueIdx

theorem zero3 : (![0, 0, 0] : Fin 3 → Nat) = fun _ => 0 := by funext a; fin_cases a <;> rfl
theorem zero2 : (![0, 0] : Fin 2 → Nat) = fun _ => 0 := by funext a; fin_cases a <;> rfl

/-- The rectangle of lanes 256 … 383 and the rectangle of lanes 0 … 255 of the output block. -/
abbrev rectHi : Rect S1x1x384 := Rect.unit (s := S1x1x384) ![0, 0, 256] S1x1x128.size inb_S1x1x384_S1x1x128_0_0_256
abbrev rectLo : Rect S1x1x384 := Rect.unit (s := S1x1x384) ![0, 0, 0] S1x1x256.size inb_S1x1x384_S1x1x256_0_0_0

section AnyInstance
variable {F : FTy → Type} [FloatOps F]

/-- After the body the output block holds the two stored values, the later store listed first, each a function of
    the loaded blocks alone. -/
theorem out_pieces (c : Dev nD) (i : grid0.Coords) (arg2 : Memref sig .tc .vmem S1x1x256 .f32) (harg2 : arg2.IsWhole) (arg3 : Memref sig .tc .vmem S1x1x50 .f32) (harg3 : arg3.IsWhole) (arg4 : Memref sig .tc .vmem S50x128 .f32) (harg4 : arg4.IsWhole) (arg5 : Memref sig .tc .vmem S1x50 .f32) (harg5 : arg5.IsWhole) (arg6 : Memref sig .tc .vmem S1x1x384 .f32) (harg6 : arg6.IsWhole)
    (x0 : Vec F S1x1x256 .f32) (x1 : Vec F S1x1x50 .f32) (x2 : Vec F S50x128 .f32) (x3 : Vec F S1x50 .f32) (xt0 : TbBuf0 (F := F) c tbM0_0) :
    out0_A_4 c i arg2 harg2 arg3 harg3 arg4 harg4 arg5 harg5 arg6 harg6 x0 x1 x2 x3 xt0
      = View.canon [(⟨rectHi, k0_pay2 x1 x3 x2⟩ : View.Piece (Elt F) S1x1x384 .f32), ⟨rectLo, k0_pay1 x0⟩] := by
  unfold out0_A_4
  rw [View.read_writes_eq_canon _ _ _ (cover0_A_4 c i arg2 harg2 arg3 harg3 arg4 harg4 arg5 harg5 arg6 harg6 x0 x1 x2 x3 xt0)]
  unfold kernelRun0_A
  dsimp only
  sl_unfold_words
  simp only [View.readAt_eq_ld, harg2.read_unread, harg3.read_unread, harg4.read_unread, harg5.read_unread,
    View.ld_unit_zero (S := S1x1x256) zero3, View.ld_unit_zero (S := S1x1x50) zero3, View.ld_unit_zero (S := S50x128) zero2,
    View.ld_unit_zero (S := S1x50) zero2]

end AnyInstance

/-- The output block as a function of the loaded blocks: the table row, then the mixture. -/
def Blk (x0 : Vec Ideal S1x1x256 .f32) (x1 : Vec Ideal S1x1x50 .f32) (x2 : Vec Ideal S50x128 .f32) (x3 : Vec Ideal S1x50 .f32) :
    S1x1x384.Idx → EReal := fun y =>
  if h : (y 2).val < 256 then x0 (ix3 (0 : Fin 1) (0 : Fin 1) (⟨(y 2).val, h⟩ : Fin 256))
  else Cert.HierEmbed.mixture x2 (fun k : Fin 50 => x1 (ix3 (0 : Fin 1) (0 : Fin 1) k) + x3 (ix2 (0 : Fin 1) k))
    ⟨(y 2).val - 256, by have h2 : (y 2).val < 384 := (y 2).isLt; omega⟩

variable (x0 : Vec Ideal S1x1x256 .f32) (x1 : Vec Ideal S1x1x50 .f32) (x2 : Vec Ideal S50x128 .f32) (x3 : Vec Ideal S1x50 .f32)

theorem Blk_lo (y : S1x1x384.Idx) (h : (y 2).val < 256) :
    Blk x0 x1 x2 x3 y = x0 (ix3 (0 : Fin 1) (0 : Fin 1) (⟨(y 2).val, h⟩ : Fin 256)) := dif_pos h

theorem Blk_hi (y : S1x1x384.Idx) (h : ¬ (y 2).val < 256) :
    Blk x0 x1 x2 x3 y = Cert.HierEmbed.mixture x2 (fun k : Fin 50 => x1 (ix3 (0 : Fin 1) (0 : Fin 1) k) + x3 (ix2 (0 : Fin 1) k))
      ⟨(y 2).val - 256, by have h2 : (y 2).val < 384 := (y 2).isLt; omega⟩ := dif_neg h

/-- The earlier store is `Blk` on its rectangle: lane j of the row. -/
theorem lo_piece (x : S1x1x256.Idx) : k0_pay1 (F := Ideal) x0 x = Blk x0 x1 x2 x3 (rectLo.emb x) := by
  obtain ⟨a, b, j, rfl⟩ : ∃ (a : Fin 1) (b : Fin 1) (j : Fin 256), x = ix3 a b j := ⟨x 0, x 1, x 2, eq_ix3 x⟩
  obtain rfl : a = 0 := Subsingleton.elim _ _
  obtain rfl : b = 0 := Subsingleton.elim _ _
  have hv : ((rectLo.emb (ix3 (0 : Fin 1) (0 : Fin 1) j)) 2).val = 0 + 1 * j.val := rfl
  have hlt : ((rectLo.emb (ix3 (0 : Fin 1) (0 : Fin 1) j)) 2).val < 256 := by rw [hv]; have := j.isLt; omega
  rw [pay1_apply, Blk_lo x0 x1 x2 x3 _ hlt]
  exact congrArg x0 (congrArg (ix3 (0 : Fin 1) (0 : Fin 1)) (Fin.ext (by show j.val = _; rw [hv]; omega)))

/-- The later store is `Blk` on its rectangle: lane d of the mixture. -/
theorem hi_piece (x : S1x1x128.Idx) : k0_pay2 (F := Ideal) x1 x3 x2 x = Blk x0 x1 x2 x3 (rectHi.emb x) := by
  obtain ⟨a, b, d, rfl⟩ : ∃ (a : Fin 1) (b : Fin 1) (d : Fin 128), x = ix3 a b d := ⟨x 0, x 1, x 2, eq_ix3 x⟩
  obtain rfl : a = 0 := Subsingleton.elim _ _
  obtain rfl : b = 0 := Subsingleton.elim _ _
  have hv : ((rectHi.emb (ix3 (0 : Fin 1) (0 : Fin 1) d)) 2).val = 256 + 1 * d.val := rfl
  have hge : ¬ ((rectHi.emb (ix3 (0 : Fin 1) (0 : Fin 1) d)) 2).val < 256 := by rw [hv]; omega
  rw [pay2_apply, Blk_hi x0 x1 x2 x3 _ hge]
  exact congrArg _ (Fin.ext (by show d.val = ((rectHi.emb (ix3 (0 : Fin 1) (0 : Fin 1) d)) 2).val - 256; omega))

/-- Every lane of the output block lies in one of the two stored rectangles. -/
theorem lanes_covered (y : S1x1x384.Idx) :
    ∃ p ∈ [(⟨rectHi, k0_pay2 (F := Ideal) x1 x3 x2⟩ : View.Piece (Elt Ideal) S1x1x384 .f32), ⟨rectLo, k0_pay1 (F := Ideal) x0⟩], y ∈ p.1.set := by
  have h0 : (y 0).val < 1 := (y 0).isLt
  have h1 : (y 1).val < 1 := (y 1).isLt
  have h2 : (y 2).val < 384 := (y 2).isLt
  by_cases h : (y 2).val < 256
  · have hm : y ∈ rectLo.set := by
      rw [Rect.mem_set_unit]
      intro a
      match a with
      | ⟨0, _⟩ => exact ⟨Nat.zero_le _, by show (y 0).val < 0 + 1; omega⟩
      | ⟨1, _⟩ => exact ⟨Nat.zero_le _, by show (y 1).val < 0 + 1; omega⟩
      | ⟨2, _⟩ => exact ⟨Nat.zero_le _, by show (y 2).val < 0 + 256; omega⟩
    exact ⟨⟨rectLo, k0_pay1 (F := Ideal) x0⟩, by simp, hm⟩
  · have hm : y ∈ rectHi.set := by
      rw [Rect.mem_set_unit]
      intro a
      match a with
      | ⟨0, _⟩ => exact ⟨Nat.zero_le _, by show (y 0).val < 0 + 1; omega⟩
      | ⟨1, _⟩ => exact ⟨Nat.zero_le _, by show (y 1).val < 0 + 1; omega⟩
      | ⟨2, _⟩ => exact ⟨by show 256 ≤ (y 2).val; omega, by show (y 2).val < 256 + 128; omega⟩
    exact ⟨⟨rectHi, k0_pay2 (F := Ideal) x1 x3 x2⟩, by simp, hm⟩

/-- So the body leaves `Blk` of the loaded blocks in the output block. -/
theorem out_eq_Blk (c : Dev nD) (i : grid0.Coords) (arg2 : Memref sig .tc .vmem S1x1x256 .f32) (harg2 : arg2.IsWhole) (arg3 : Memref sig .tc .vmem S1x1x50 .f32) (harg3 : arg3.IsWhole) (arg4 : Memref sig .tc .vmem S50x128 .f32) (harg4 : arg4.IsWhole) (arg5 : Memref sig .tc .vmem S1x50 .f32) (harg5 : arg5.IsWhole) (arg6 : Memref sig .tc .vmem S1x1x384 .f32) (harg6 : arg6.IsWhole) (xt0 : TbBuf0 (F := Ideal) c tbM0_0) :
    out0_A_4 (F := Ideal) c i arg2 harg2 arg3 harg3 arg4 harg4 arg5 harg5 arg6 harg6 x0 x1 x2 x3 xt0 = Blk x0 x1 x2 x3 := by
  rw [out_pieces]
  funext y
  refine View.canon_apply_of_pieces (Blk x0 x1 x2 x3) _ ?_ y (lanes_covered x0 x1 x2 x3 y)
  intro p hp x
  simp only [List.mem_cons, List.not_mem_nil, or_false] at hp
  rcases hp with rfl | rfl
  · exact hi_piece x0 x1 x2 x3 x
  · exact lo_piece x0 x1 x2 x3 x

end Cert.HierEmbed.Body

end
-- ==== Proof.Blocks.lean ====
/-
  What the four input windows hold at grid point t, as entries of the argument arrays.

  Before the grid runs, the [64, 200] ids are laid out flat as 12800 words, the [100000, 256] location table and the
  transposed [50, 100000] weights are given a unit middle axis, and the bias becomes a [1, 50] row. Point t's id is
  word t of the flat ids, which is entry (t / 200, t % 200) of the array since t = (t / 200) · 200 + t % 200. Windows
  0 and 1 take block (id of t, 0, 0) of their arrays, blocks [1, 1, 256] and [1, 1, 50]: lane j of the first is
  entry (id of t, j) of the location table, lane k of the second is entry (k, id of t) of the weights; where every id
  is below 100000 the id is the row it names. Windows 2 and 3 take block (0, 0) of arrays one block large: the whole
  cluster table, and the bias read along the row.
-/
import proofs.«424275_j25623774888460_2_alg».proof.Proof.Gen.KernelIdeal.Frame
import proofs.«424275_j25623774888460_2_alg».proof.Proof.Spec
import proofs.«424275_j25623774888460_2_alg».proof.Proof.OkKernelIdeal
import Idealize.ShloMosaic.Lib.ValueIdx
import Idealize.ShloMosaic.Lib.Pipeline.Value
import Idealize.ShloMosaic.Lib.StableHlo.Run

set_option maxRecDepth 16384

noncomputable section

namespace Cert.HierEmbed.Blocks

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (hO : Ok m) (c : Dev nD)

/-- The id of grid point t: entry (t / 200, t % 200) of the [64, 200] array. -/
def idAt (t : Fin 12800) : BitVec 32 :=
  m ((c : Thread nD τ).loc main_arg0) (ix2 (⟨t.val / 200, by have := t.isLt; omega⟩ : Fin 64) (⟨t.val % 200, Nat.mod_lt _ (by decide)⟩ : Fin 200))

/-- Grid point t as a number below 12800. -/
def pt (t : Fin (cfgM m hO).N) : Fin 12800 := ⟨t.val, t.isLt⟩

/-! ## The windows' arrays as the region finds them -/

/-- The location table's window array is the [100000, 256] table with a unit axis put in the middle. -/
theorem V_v3 : (V m c main_v3 : S100000x1x256.Idx → EReal)
    = shapeCast S100000x1x256 (m ((c : Thread nD τ).loc main_arg1)) shapeCasts_S100000x256_S100000x1x256 := by
  show StableHlo.after hostOps0 (fun b => m (c, b)) (Proc.devRef .tc main_v3) = _
  after_results
  rfl

/-- The weights' window array is the [50, 100000] weights transposed, with a unit axis put in the middle. -/
theorem V_v4 : (V m c main_v4 : S100000x1x50.Idx → EReal)
    = shapeCast S100000x1x50 (transpose S100000x50 [1, 0] (m ((c : Thread nD τ).loc main_arg3)) transposes_S50x100000_S100000x50_1_0)
        shapeCasts_S100000x50_S100000x1x50 := by
  show StableHlo.after hostOps0 (fun b => m (c, b)) (Proc.devRef .tc main_v4) = _
  after_results
  rfl

/-- The bias's window array is the bias vector as a row. -/
theorem V_v2 : (V m c main_v2 : S1x50.Idx → EReal)
    = shapeCast S1x50 (m ((c : Thread nD τ).loc main_arg4)) shapeCasts_S50_S1x50 := by
  show StableHlo.after hostOps0 (fun b => m (c, b)) (Proc.devRef .tc main_v2) = _
  after_results
  rfl

/-! ## Those arrays read at an index -/

/-- Entry (r, ·, j) of the table with a unit axis in the middle is entry (r, j) of the table. -/
theorem row_read (T : S100000x256.Idx → EReal) (i : S100000x1x256.Idx) (r : Fin 100000) (j : Fin 256)
    (h0 : (i 0).val = r.val) (h2 : (i 2).val = j.val) :
    shapeCast S100000x1x256 T shapeCasts_S100000x256_S100000x1x256 i = T (ix2 r j) :=
  shapeCast_apply T _ i (ix2 r j) (by
    have h1 : (i 1).val < 1 := (i 1).isLt
    rw [Shape.rowMajor_val_two, Shape.rowMajor_val_three]
    show r.val * 256 + j.val = ((i 0).val * 1 + (i 1).val) * 256 + (i 2).val
    omega)

/-- Entry (r, ·, k) of the transposed weights with a unit axis in the middle is entry (k, r) of the weights. -/
theorem col_read (W : S50x100000.Idx → EReal) (i : S100000x1x50.Idx) (r : Fin 100000) (k : Fin 50)
    (h0 : (i 0).val = r.val) (h2 : (i 2).val = k.val) :
    shapeCast S100000x1x50 (transpose S100000x50 [1, 0] W transposes_S50x100000_S100000x50_1_0)
      shapeCasts_S100000x50_S100000x1x50 i = W (ix2 k r) := by
  refine (shapeCast_apply _ _ i (ix2 r k) (by
    have h1 : (i 1).val < 1 := (i 1).isLt
    rw [Shape.rowMajor_val_two, Shape.rowMajor_val_three]
    show r.val * 50 + k.val = ((i 0).val * 1 + (i 1).val) * 50 + (i 2).val
    omega)).trans ?_
  exact transpose_apply [1, 0] W transposes_S50x100000_S100000x50_1_0 (ix2 r k) (ix2 k r) (fun b => match b with
    | ⟨0, _⟩ => rfl
    | ⟨1, _⟩ => rfl)

/-- Entry (·, k) of the bias as a row is entry k of the bias. -/
theorem bias_read (b : S50.Idx → EReal) (i : S1x50.Idx) (k : Fin 50) (h1 : (i 1).val = k.val) :
    shapeCast S1x50 b shapeCasts_S50_S1x50 i = b (ix1 k) :=
  shapeCast_apply b _ i (ix1 k) (by
    have h0 : (i 0).val < 1 := (i 0).isLt
    rw [Shape.rowMajor_val_one, Shape.rowMajor_val_two]
    show k.val = (i 0).val * 50 + (i 1).val
    omega)

/-! ## The table of ids -/

/-- The word of the flat table of ids at position t is the id of t. -/
theorem tbl_read (x : S12800.Idx) (t : Fin 12800) (hx : (x 0).val = t.val) : tbl m 0 x = idAt m 0 t := by
  rw [Cert.KernelIdeal.OkOfPre.tbl_eq]
  unfold idAt
  refine shapeCast_apply _ _ x _ ?_
  show (S64x200.rowMajor (ix2 (⟨t.val / 200, _⟩ : Fin 64) (⟨t.val % 200, _⟩ : Fin 200))).val = (S12800.rowMajor x).val
  rw [Shape.rowMajor_val_two, Shape.rowMajor_val_one]
  show t.val / 200 * 200 + t.val % 200 = (x 0).val
  omega

/-- The first block index of the location table's window at grid coordinates i: the id of point i, as a number. -/
theorem word0 (i : grid0.Coords) :
    cc0_transform_0 k0_off1_inb numel1_S1 (tbl m) i (0 : Fin 3) = (idAt m 0 ⟨(i 0).val, (i 0).isLt⟩).toNat := by
  show (tbl m 0 _).toNat = _
  refine congrArg BitVec.toNat (tbl_read m _ _ ?_)
  show k0_off1 i 0 + 1 * 0 = (i 0).val
  rw [k0_off1_eq]
  rfl

/-- The first block index of the weights' window likewise. -/
theorem word1 (i : grid0.Coords) :
    cc0_transform_1 k0_off1_inb numel1_S1 (tbl m) i (0 : Fin 3) = (idAt m 0 ⟨(i 0).val, (i 0).isLt⟩).toNat := by
  show (tbl m 0 _).toNat = _
  refine congrArg BitVec.toNat (tbl_read m _ _ ?_)
  show k0_off1 i 0 + 1 * 0 = (i 0).val
  rw [k0_off1_eq]
  rfl

/-- Grid point t's one coordinate is t. -/
theorem coord_pt (t : Fin (cfgM m hO).N) :
    (⟨(grid0.coords t 0).val, (grid0.coords t 0).isLt⟩ : Fin 12800) = pt m hO t := by
  have ht : t.val < 12800 := t.isLt
  refine Fin.ext ?_
  show t.val / 1 % 12800 = t.val
  omega

/-- Window 0's block at point t is row "id of t" of the location table. -/
theorem iblk0_apply (hids : ∀ i, (m (((0 : Dev nD) : Thread nD τ).loc main_arg0) i).toNat < 100000)
    (t : Fin (cfgM m hO).N) (j : Fin 256) :
    (iblk m hO c 0 t : Vec Ideal S1x1x256 .f32) (ix3 (0 : Fin 1) (0 : Fin 1) j)
      = m ((c : Thread nD τ).loc main_arg1) (ix2 (Cert.HierEmbed.rowOf (idAt m c (pt m hO t))) j) := by
  obtain rfl : c = 0 := Subsingleton.elim _ _
  have hr : (Cert.HierEmbed.rowOf (idAt m 0 (pt m hO t))).val = (idAt m 0 (pt m hO t)).toNat :=
    Cert.HierEmbed.rowOf_val (hids _)
  have hw := word0 m (grid0.coords t)
  rw [coord_pt m hO t] at hw
  unfold iblk
  show V m 0 main_v3 ((((cfgM m hO).win 0).blk t).view.emb (ix3 (0 : Fin 1) (0 : Fin 1) j)) = _
  rw [V_v3]
  refine row_read _ _ (Cert.HierEmbed.rowOf (idAt m 0 (pt m hO t))) j ?_ ?_
  · refine Eq.trans ?_ hr.symm
    show cc0_transform_0 k0_off1_inb numel1_S1 (tbl m) (grid0.coords t) (0 : Fin 3) * 1 + 1 * 0 = _
    omega
  · show 0 * 256 + 1 * j.val = j.val
    omega

/-- Window 1's block at point t is column "id of t" of the [50, 100000] weights. -/
theorem iblk1_apply (hids : ∀ i, (m (((0 : Dev nD) : Thread nD τ).loc main_arg0) i).toNat < 100000)
    (t : Fin (cfgM m hO).N) (k : Fin 50) :
    (iblk m hO c 1 t : Vec Ideal S1x1x50 .f32) (ix3 (0 : Fin 1) (0 : Fin 1) k)
      = m ((c : Thread nD τ).loc main_arg3) (ix2 k (Cert.HierEmbed.rowOf (idAt m c (pt m hO t)))) := by
  obtain rfl : c = 0 := Subsingleton.elim _ _
  have hr : (Cert.HierEmbed.rowOf (idAt m 0 (pt m hO t))).val = (idAt m 0 (pt m hO t)).toNat :=
    Cert.HierEmbed.rowOf_val (hids _)
  have hw := word1 m (grid0.coords t)
  rw [coord_pt m hO t] at hw
  unfold iblk
  show V m 0 main_v4 ((((cfgM m hO).win 1).blk t).view.emb (ix3 (0 : Fin 1) (0 : Fin 1) k)) = _
  rw [V_v4]
  refine col_read _ _ (Cert.HierEmbed.rowOf (idAt m 0 (pt m hO t))) k ?_ ?_
  · refine Eq.trans ?_ hr.symm
    show cc0_transform_1 k0_off1_inb numel1_S1 (tbl m) (grid0.coords t) (0 : Fin 3) * 1 + 1 * 0 = _
    omega
  · show 0 * 50 + 1 * k.val = k.val
    omega

/-- Window 2's block at every point is the whole cluster table. -/
theorem iblk2_eq (t : Fin (cfgM m hO).N) :
    (iblk m hO c 2 t : Vec Ideal S50x128 .f32) = m ((c : Thread nD τ).loc main_arg2) := by
  refine funext fun (y : S50x128.Idx) => ?_
  unfold iblk
  show V m c main_arg2 ((((cfgM m hO).win 2).blk t).view.emb y) = _
  rw [V_main_arg2]
  refine congrArg _ (funext fun a => Fin.ext ?_)
  match a with
  | ⟨0, _⟩ => show 0 * 50 + 1 * (y 0).val = (y 0).val; omega
  | ⟨1, _⟩ => show 0 * 128 + 1 * (y 1).val = (y 1).val; omega

/-- Window 3's block at every point is the bias, as a row. -/
theorem iblk3_apply (t : Fin (cfgM m hO).N) (k : Fin 50) :
    (iblk m hO c 3 t : Vec Ideal S1x50 .f32) (ix2 (0 : Fin 1) k) = m ((c : Thread nD τ).loc main_arg4) (ix1 k) := by
  unfold iblk
  show V m c main_v2 ((((cfgM m hO).win 3).blk t).view.emb (ix2 (0 : Fin 1) k)) = _
  rw [V_v2]
  refine bias_read _ _ k ?_
  show 0 * 50 + 1 * k.val = k.val
  omega

end Cert.HierEmbed.Blocks

end
-- ==== Proof.KernelValue.lean ====
/-
  The idealized kernel's result array is `G` of its five arguments.

  Grid point t stores the [1, 1, 384] block that the body leaves — the row "id of t" of the location table, then
  the mixture for that id's logits — as row t of a [12800, 1, 384] array; the 12800 rows are the 64 × 200
  positions in row-major order, t = 200 p + q. Every row is written by exactly its own grid point, so after the
  last point the array holds, at (t, 0, j), the value of `G` at (t / 200, t % 200, j). The program's last operation
  recasts that array to [64, 200, 384], which is `G` itself.
-/
import proofs.«424275_j25623774888460_2_alg».proof.Proof.Gen.KernelIdeal.Frame
import proofs.«424275_j25623774888460_2_alg».proof.Proof.BodyOut
import proofs.«424275_j25623774888460_2_alg».proof.Proof.Blocks
import proofs.«424275_j25623774888460_2_alg».proof.Proof.Spec
import Idealize.ShloMosaic.Lib.Pipeline.Value
import Idealize.ShloMosaic.Lib.ValueIdx
import Idealize.ShloMosaic.Lib.StableHlo.Run

set_option maxRecDepth 16384

noncomputable section

namespace Cert.HierEmbed.KernelValue

open Cert.KernelIdeal Cert.KernelIdeal.Gen
open Idealize.ShloMosaic Idealize.ShloMosaic.TcCoe Idealize.SL.Sem Idealize.ShloMosaic.StableHlo Idealize.ShloMosaic.ValueIdx
open Cert.HierEmbed Cert.HierEmbed.Body Cert.HierEmbed.Blocks

variable (m : (ℓ : Loc nD τ sig) → Buf (Elt Ideal) ℓ) (ρ : Dev nD → PrngReg) (hO : Ok m)

/-- `G` of the five argument arrays of device c. -/
abbrev GArgs (c : Dev nD) : S64x200x384.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The same values laid out as 12800 rows: row t is position (t / 200, t % 200). -/
def Gflat (c : Dev nD) : S12800x1x384.Idx → EReal := fun z =>
  GArgs m c (ix3 (⟨(z 0).val / 200, by have h : (z 0).val < 12800 := (z 0).isLt; omega⟩ : Fin 64)
    (⟨(z 0).val % 200, Nat.mod_lt _ (by decide)⟩ : Fin 200) (⟨(z 2).val, (z 2).isLt⟩ : Fin 384))

/-- The four input blocks of grid point t, each at its own literal shape. -/
abbrev rowBlk (c : Dev nD) (t : Fin (cfgM m hO).N) : Vec Ideal S1x1x256 .f32 := iblk m hO c 0 t
abbrev wgtBlk (c : Dev nD) (t : Fin (cfgM m hO).N) : Vec Ideal S1x1x50 .f32 := iblk m hO c 1 t
abbrev cluBlk (c : Dev nD) (t : Fin (cfgM m hO).N) : Vec Ideal S50x128 .f32 := iblk m hO c 2 t
abbrev biasBlk (c : Dev nD) (t : Fin (cfgM m hO).N) : Vec Ideal S1x50 .f32 := iblk m hO c 3 t

/-- The mixture depends only on the table and the logits it is given. -/
theorem mixture_congr (C C' : SClu.Idx → EReal) (l l' : Fin 50 → EReal) (d : Fin 128) (hC : C = C') (hl : l = l') :
    mixture C l d = mixture C' l' d := by rw [hC, hl]

/-- The block the body leaves at point t, at lane y, is row t of the flat array at that lane. -/
theorem blk_eq_Gflat (hids : ∀ i, (m (((0 : Dev nD) : Thread nD τ).loc main_arg0) i).toNat < 100000) (c : Dev nD)
    (t : Fin (cfgM m hO).N) (y : S1x1x384.Idx) (z : S12800x1x384.Idx) (hz0 : (z 0).val = t.val) (hz2 : (z 2).val = (y 2).val) :
    Blk (rowBlk m hO c t) (wgtBlk m hO c t) (cluBlk m hO c t) (biasBlk m hO c t) y = Gflat m c z := by
  have hz : Gflat m c z = GArgs m c (ix3 (⟨t.val / 200, by have h : t.val < 12800 := t.isLt; omega⟩ : Fin 64)
      (⟨t.val % 200, Nat.mod_lt _ (by decide)⟩ : Fin 200) (⟨(y 2).val, (y 2).isLt⟩ : Fin 384)) := by
    unfold Gflat
    congr 1
    funext a
    match a with
    | ⟨0, _⟩ => exact Fin.ext (by show (z 0).val / 200 = t.val / 200; rw [hz0])
    | ⟨1, _⟩ => exact Fin.ext (by show (z 0).val % 200 = t.val % 200; rw [hz0])
    | ⟨2, _⟩ => exact Fin.ext hz2
  rw [hz]
  by_cases h : (y 2).val < 256
  · refine (Blk_lo (rowBlk m hO c t) (wgtBlk m hO c t) (cluBlk m hO c t) (biasBlk m hO c t) y h).trans ?_
    refine (iblk0_apply m hO c hids t ⟨(y 2).val, h⟩).trans ?_
    exact (G_fine _ _ _ _ _ _ _ ⟨(y 2).val, (y 2).isLt⟩ h).symm
  · refine (Blk_hi (rowBlk m hO c t) (wgtBlk m hO c t) (cluBlk m hO c t) (biasBlk m hO c t) y h).trans ?_
    refine Eq.trans ?_ (G_coarse _ _ _ _ _ _ _ ⟨(y 2).val, (y 2).isLt⟩ h).symm
    have e2 : cluBlk m hO c t = m ((c : Thread nD τ).loc main_arg2) := iblk2_eq m hO c t
    have el : (fun k : Fin 50 => wgtBlk m hO c t (ix3 (0 : Fin 1) (0 : Fin 1) k) + biasBlk m hO c t (ix2 (0 : Fin 1) k))
        = logit (m ((c : Thread nD τ).loc main_arg3)) (m ((c : Thread nD τ).loc main_arg4)) (rowOf (idAt m c (pt m hO t))) :=
      funext fun k => by
        have h1 : wgtBlk m hO c t (ix3 (0 : Fin 1) (0 : Fin 1) k)
            = m ((c : Thread nD τ).loc main_arg3) (ix2 k (rowOf (idAt m c (pt m hO t)))) := iblk1_apply m hO c hids t k
        have h3 : biasBlk m hO c t (ix2 (0 : Fin 1) k) = m ((c : Thread nD τ).loc main_arg4) (ix1 k) := iblk3_apply m hO c t k
        exact congrArg₂ (fun a b : EReal => a + b) h1 h3
    exact mixture_congr _ _ _ _ _ e2 el

/-- The output window's first block index at grid point t is t. -/
theorem outIdx0 (t : Fin (cfgM m hO).N) : cc0_transform_4 (grid0.coords t) (0 : Fin 3) = t.val := by
  have ht : t.val < 12800 := t.isLt
  show (BitVec.ofNat 32 (t.val / 1 % 12800)).toNat = t.val
  rw [BitVec.toNat_ofNat]
  have h1 : t.val / 1 % 12800 = t.val := by omega
  rw [h1]
  exact Nat.mod_eq_of_lt (by omega)

/-- What grid point t writes back is row t of the flat array. -/
theorem flushed_eq (hids : ∀ i, (m (((0 : Dev nD) : Thread nD τ).loc main_arg0) i).toNat < 100000) (c : Dev nD)
    (t : Fin (cfgM m hO).N) :
    (dats m hO 0 c).flushed 4 t = (((cfgM m hO).win 4).blk t).view.read (Elt Ideal) (Gflat m c) := by
  show ((cfgM m hO).win 4).cut ((cfgM m hO).grid.coords t) ((dats m hO 0 c).after 4 t) = _
  rw [after0_4]
  unfold outsAt0
  refine funext fun (y : S1x1x384.Idx) => ?_
  refine Eq.trans (b := Blk (rowBlk m hO c t) (wgtBlk m hO c t) (cluBlk m hO c t) (biasBlk m hO c t) y) ?_ ?_
  · exact congrFun (out_eq_Blk (rowBlk m hO c t) (wgtBlk m hO c t) (cluBlk m hO c t) (biasBlk m hO c t) c (grid0.coords t)
      (ms0_0 m hO t) (hs0_0 m hO t) (ms0_1 m hO t) (hs0_1 m hO t) (ms0_2 m hO t) (hs0_2 m hO t) (ms0_3 m hO t) (hs0_3 m hO t)
      (ms0_4 m hO t) (hs0_4 m hO t) (tbl m 0)) y
  · show _ = Gflat m c ((((cfgM m hO).win 4).blk t).view.emb y)
    have hy0 : (y 0).val < 1 := (y 0).isLt
    refine blk_eq_Gflat m hO hids c t y _ ?_ ?_
    · show cc0_transform_4 (grid0.coords t) (0 : Fin 3) * 1 + 1 * (y 0).val = t.val
      rw [outIdx0 m hO t]
      omega
    · show 0 * 384 + 1 * (y 2).val = (y 2).val
      omega

/-- Row r of the flat array is written by grid point r: the index (r, 0, j) is lane j of that point's block. -/
theorem rows_covered (i : S12800x1x384.Idx) :
    ∃ t : Fin (cfgM m hO).N, ((cfgM m hO).win 4).flush t = true ∧ i ∈ (((cfgM m hO).win 4).blk t).view.set := by
  have hi0 : (i 0).val < 12800 := (i 0).isLt
  have hi1 : (i 1).val < 1 := (i 1).isLt
  have hi2 : (i 2).val < 384 := (i 2).isLt
  refine ⟨⟨(i 0).val, hi0⟩, flush0_4 (adm m hO) _, ?_⟩
  have e : (((cfgM m hO).win 4).blk (⟨(i 0).val, hi0⟩ : Fin (cfgM m hO).N)).view.emb
      (ix3 (0 : Fin 1) (0 : Fin 1) (⟨(i 2).val, hi2⟩ : Fin 384) : S1x1x384.Idx) = i := by
    funext a
    refine Fin.ext ?_
    match a with
    | ⟨0, _⟩ =>
      show cc0_transform_4 (grid0.coords (⟨(i 0).val, hi0⟩ : Fin (cfgM m hO).N)) (0 : Fin 3) * 1 + 1 * 0 = (i 0).val
      rw [outIdx0 m hO ⟨(i 0).val, hi0⟩]
      show (i 0).val * 1 + 1 * 0 = (i 0).val
      omega
    | ⟨1, _⟩ => show 0 * 1 + 1 * 0 = (i 1).val; omega
    | ⟨2, _⟩ => show 0 * 384 + 1 * (i 2).val = (i 2).val; omega
  have hm : (((cfgM m hO).win 4).blk (⟨(i 0).val, hi0⟩ : Fin (cfgM m hO).N)).view.emb
        (ix3 (0 : Fin 1) (0 : Fin 1) (⟨(i 2).val, hi2⟩ : Fin 384) : S1x1x384.Idx)
      ∈ (((cfgM m hO).win 4).blk (⟨(i 0).val, hi0⟩ : Fin (cfgM m hO).N)).view.set :=
    View.emb_mem_set (((cfgM m hO).win 4).blk (⟨(i 0).val, hi0⟩ : Fin (cfgM m hO).N)).view
      (ix3 (0 : Fin 1) (0 : Fin 1) (⟨(i 2).val, hi2⟩ : Fin 384) : S1x1x384.Idx)
  rw [e] at hm
  exact hm

/-- After the last grid point the output window's array is the flat array. -/
theorem final (hids : ∀ i, (m (((0 : Dev nD) : Thread nD τ).loc main_arg0) i).toNat < 100000) (c : Dev nD) :
    (dats m hO 0 c).arrAt 4 (cfgM m hO).N = Gflat m c :=
  (dats m hO 0 c).arrAt_eq_of_cover 4 (Gflat m c) (fun t _ => flushed_eq m hO hids c t) (rows_covered m hO)

/-- The flat array recast to [64, 200, 384] is `G`: position (p, q) is row 200 p + q. -/
theorem Gflat_cast (c : Dev nD) :
    shapeCast S64x200x384 (Gflat m c) shapeCasts_S12800x1x384_S64x200x384 = GArgs m c := by
  funext i
  obtain ⟨p, q, j, rfl⟩ : ∃ (p : Fin 64) (q : Fin 200) (j : Fin 384), i = ix3 p q j := ⟨i 0, i 1, i 2, eq_ix3 i⟩
  have hp := p.isLt
  have hq := q.isLt
  refine (shapeCast_apply (Gflat m c) _ (ix3 p q j)
    (ix3 (⟨p.val * 200 + q.val, by omega⟩ : Fin 12800) (0 : Fin 1) j) ?_).trans ?_
  · rw [Shape.rowMajor_val_three, Shape.rowMajor_val_three]
    show ((p.val * 200 + q.val) * 1 + 0) * 384 + j.val = (p.val * 200 + q.val) * 384 + j.val
    omega
  · unfold Gflat
    refine congrArg (GArgs m c) (funext fun a => ?_)
    match a with
    | ⟨0, _⟩ => exact Fin.ext (by show (p.val * 200 + q.val) / 200 = p.val; omega)
    | ⟨1, _⟩ => exact Fin.ext (by show (p.val * 200 + q.val) % 200 = q.val; omega)
    | ⟨2, _⟩ => rfl

/-- The program's result: the flat array recast to [64, 200, 384]. -/
theorem result_eq (hids : ∀ i, (m (((0 : Dev nD) : Thread nD τ).loc main_arg0) i).toNat < 100000) (c : Dev nD) :
    Pipeline.afterTail pcfgs (fun _ => adm m hO) (dats m hO) 0 (V0 m) [hostOps1] c main_v6 = GArgs m c := by
  have hw := (Pipeline.withArrays_arr spec0 (launch0 (F := Ideal)).win.arr_inj c (V0 m c)
    (fun w => (dats m hO 0 c).arrAt w (cfgM m hO).N) 4).trans (final m hO hids c)
  unfold Pipeline.afterTail
  show StableHlo.after hostOps1 _ (Proc.devRef .tc main_v6) = _
  after_results
  refine Eq.trans ?_ (Gflat_cast m c)
  exact congrArg (fun X => shapeCast S64x200x384 X shapeCasts_S12800x1x384_S64x200x384) hw

/-- THE RUN: every weakly fair execution of the idealized kernel from a memory whose ids lie in [0, 100000)
    terminates with the result array at `G` of the arguments and the arguments unchanged. -/
theorem kernel_run (hO : Ok m) (hids : ∀ i, (m (((0 : Dev nD) : Thread nD τ).loc main_arg0) i).toNat < 100000) :
    θ_run defs (onTc (τ := τ) (main (F := Ideal))) ⟨m, fun _ => 0, ρ⟩ (fun r => ∀ c : Dev nD,
      r.2.mem ((c.tc : Thread nD τ).loc main_v6) = GArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (by decide : main_v6 ∈ Pipeline.restRefs sig spec0)).trans (result_eq m hO hids c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).1 2).trans (((dats m hO 0 c).arrAt_in 2 rfl _).trans ((A_eq m hO c 2).trans (V_main_arg2 m c))),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c)⟩)
    (run_main m ρ hO)

end Cert.HierEmbed.KernelValue

end
-- ==== Proof.LibRowGather.lean ====
/-
  A row gather of a table, read at an index.

  A table `[N, D]` is gathered at an array `[R, C, 1]` of start indices into a result `[R, C, D]`: the result's last
  axis is the offset axis, the table's first axis is collapsed and is the one the start index names, and the slice is one
  row, `[1, D]`. The result at `(p, q, j)` is the table at `(r, j)`, where the row `r` is the start index at `(p, q, 0)`
  read as a signed integer and clamped into `[0, N − 1]`, the range in which a slice of one row fits.
-/
import Idealize.ShloMosaic.Lib.ValueIdx

noncomputable section

namespace Cert.Lib

open Idealize.ShloMosaic Idealize.ShloMosaic.ValueIdx

variable {α : Type}

/-- Those dimension numbers for a table `[N, D]`, start indices `[R, C, 1]` and a result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at `(p, q, j)`: the table's entry `j` of the row the start index at `(p, q, 0)` names, that index
    read signed and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (p : Fin R) (q : Fin C) (j : Fin D) :
    Host.gather (rowDims N D R C wf) x idx (ix3 p q j)
      = x (ix2 ⟨min (idx (ix3 p q (0 : Fin 1))).toInt.toNat (N - 1), by omega⟩ j) := by
  unfold Host.gather
  congr 1
  funext a
  refine Fin.ext ?_
  match a with
  | ⟨0, _⟩ =>
    show (rowDims N D R C wf).start (ix3 p q j) idx 0 + (rowDims N D R C wf).batchCoord (ix3 p q j) 0
      + (rowDims N D R C wf).offCoord (ix3 p q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 p q j) ⟨List.idxOf (0 : Fin 2) (rowDims N D R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 p q j) idx 1 + (rowDims N D R C wf).batchCoord (ix3 p q j) 1
      + (rowDims N D R C wf).offCoord (ix3 p q j) 1 = j.val
    rw [GatherDims.batchCoord_eq_zero _ _ _ List.not_mem_nil]
    have hs : (rowDims N D R C wf).start (ix3 p q j) idx 1 = 0 := by
      unfold GatherDims.start
      rw [dif_neg (show ¬ (1 : Fin 2) ∈ [(0 : Fin 2)] by decide)]
    have hk : (1 : Fin 2) ∈ (rowDims N D R C wf).sKept :=
      (GatherDims.mem_sKept _ _).2 ⟨show ¬ (1 : Fin 2) ∈ [(0 : Fin 2)] by decide, List.not_mem_nil⟩
    have ho : (rowDims N D R C wf).offCoord (ix3 p q j) 1 = j.val := by
      unfold GatherDims.offCoord
      rw [dif_pos hk]
      rfl
    rw [hs, ho]
    omega

end Cert.Lib

end
-- ==== Proof.RefValue.lean ====
/-
  The reference's result, read index by index, is the function `G` of the specification.

  Every id lies in [0, 100000), so it is not negative as a signed integer and the reference's wrap-around of a negative
  id leaves it as it is; read signed and clamped into [0, 99999] by the gather, it names the row of its own value. The
  first gather then reads that row of the location table, the second that row of the transposed logit weights, which
  with the bias gives the 50 logits. Their maximum is the fold of max from negative infinity, and a further maximum
  with negative infinity changes nothing. The exponentials of the differences, their sum from zero, the quotients
  and the contraction with the cluster table are the specification's softmax weights and mixture term by term. The
  result joins the two pieces along the last axis: a lane below 256 reads the first, another the second 256 lanes
  earlier.
-/
import proofs.«424275_j25623774888460_2_alg».proof.Proof.RefRead
import proofs.«424275_j25623774888460_2_alg».proof.Proof.Spec
import proofs.«424275_j25623774888460_2_alg».proof.Proof.LibWordRange
import proofs.«424275_j25623774888460_2_alg».proof.Proof.LibRowGather
import Idealize.ShloMosaic.Lib.ValueIdx
import Idealize.ShloMosaic.Lib.Pipeline.Value
import Idealize.ShloMosaic.PureOps.Ideal.Laws

noncomputable section

open scoped BigOperators

namespace Cert.HierEmbed.Ref

open Cert.ReferenceIdeal Cert.ReferenceIdeal.Gen Cert.ReferenceIdeal.Read
open Idealize.ShloMosaic Idealize.ShloMosaic.ValueIdx

/-- An id below the row count, read signed and capped at the last row, is the row it names. -/
theorem clamp_eq_rowOf (w : BitVec 32) (h : w.toNat < 100000) : min w.toInt.toNat (100000 - 1) = (rowOf w).val := by
  rw [Cert.Lib.toInt_toNat_of_lt w (by omega)]
  rfl

/-- The last axis of the [64, 200, 50] array reduces away to [64, 200]. -/
theorem reduces_last : S64x200x50.Reduces [2] S64x200 := by decide

section Stages

variable (ids : (⟨S64x200, .i32⟩ : BufTy).Contents (Elt Ideal)) (T : (⟨S100000x256, .f32⟩ : BufTy).Contents (Elt Ideal))
  (C : (⟨S50x128, .f32⟩ : BufTy).Contents (Elt Ideal)) (W : (⟨S50x100000, .f32⟩ : BufTy).Contents (Elt Ideal))
  (b : (⟨S50, .f32⟩ : BufTy).Contents (Elt Ideal)) (hids : ∀ i, (ids i).toNat < 100000)

include hids

/-- The wrap-around of a negative id leaves an id in range as it is (first copy). -/
theorem v4_apply (i : S64x200.Idx) : val_main_v4 (F := Ideal) ids i = ids i := by
  have h31 : (ids i).toNat < 2 ^ 31 := by have := hids i; omega
  rw [val_main_v4_apply, val_main_v1_apply, val_main_v0_apply, val_main_c_apply,
    Cert.Lib.not_slt_zero_of_lt _ h31, select_zero]

/-- The wrap-around of a negative id leaves an id in range as it is (second copy). -/
theorem v12_apply (i : S64x200.Idx) : val_main_v12 (F := Ideal) ids i = ids i := by
  have h31 : (ids i).toNat < 2 ^ 31 := by have := hids i; omega
  rw [val_main_v12_apply, val_main_v9_apply, val_main_v8_apply, val_main_c_1_apply,
    Cert.Lib.not_slt_zero_of_lt _ h31, select_zero]

/-- The start indices of the first gather at (p, q, 0): the id at (p, q). -/
theorem v5_at (p : Fin 64) (q : Fin 200) (u : Fin 1) : val_main_v5 (F := Ideal) ids (ix3 p q u) = ids (ix2 p q) := by
  rw [val_main_v5_apply, v4_apply ids hids]
  exact congrArg ids (funext fun a => by match a with | ⟨0, _⟩ => rfl | ⟨1, _⟩ => rfl)

/-- The start indices of the second gather at (p, q, 0): the id at (p, q). -/
theorem v13_at (p : Fin 64) (q : Fin 200) (u : Fin 1) : val_main_v13 (F := Ideal) ids (ix3 p q u) = ids (ix2 p q) := by
  rw [val_main_v13_apply, v12_apply ids hids]
  exact congrArg ids (funext fun a => by match a with | ⟨0, _⟩ => rfl | ⟨1, _⟩ => rfl)

/-- The first gather at (p, q, j): lane j of the location table's row the id names. -/
theorem v6_at (p : Fin 64) (q : Fin 200) (j : Fin 256) :
    val_main_v6 (F := Ideal) ids T (ix3 p q j) = T (ix2 (rowOf (ids (ix2 p q))) j) := by
  unfold val_main_v6
  refine (Cert.Lib.gather_rows_apply (by decide) gather_S100000x256_S64x200x1_S64x200x256_2_0_n_n_0_2_1256_wf T
    (val_main_v5 (F := Ideal) ids) p q j).trans ?_
  refine congrArg (fun r => T (ix2 r j)) (Fin.ext ?_)
  show min (val_main_v5 (F := Ideal) ids (ix3 p q (0 : Fin 1))).toInt.toNat (100000 - 1) = _
  rw [v5_at ids hids]
  exact clamp_eq_rowOf _ (hids _)

/-- The second gather at (p, q, k): the logit weight of cluster k at the row the id names. -/
theorem v14_at (p : Fin 64) (q : Fin 200) (k : Fin 50) :
    val_main_v14 (F := Ideal) ids W (ix3 p q k) = W (ix2 k (rowOf (ids (ix2 p q)))) := by
  unfold val_main_v14
  refine (Cert.Lib.gather_rows_apply (by decide) gather_S100000x50_S64x200x1_S64x200x50_2_0_n_n_0_2_150_wf
    (val_main_v7 (F := Ideal) W) (val_main_v13 (F := Ideal) ids) p q k).trans ?_
  rw [val_main_v7_apply]
  refine congrArg W (funext fun a => Fin.ext ?_)
  match a with
  | ⟨0, _⟩ => rfl
  | ⟨1, _⟩ =>
    show min (val_main_v13 (F := Ideal) ids (ix3 p q (0 : Fin 1))).toInt.toNat (100000 - 1) = _
    rw [v13_at ids hids]
    exact clamp_eq_rowOf _ (hids _)

/-- The logits at (p, q, k). -/
theorem v17_at (p : Fin 64) (q : Fin 200) (k : Fin 50) :
    val_main_v17 (F := Ideal) ids W b (ix3 p q k) = logit W b (rowOf (ids (ix2 p q))) k := by
  rw [val_main_v17_apply, v14_at ids W hids, val_main_v16_apply, val_main_v15_apply]
  exact congrArg (fun z => W (ix2 k (rowOf (ids (ix2 p q)))) + b z)
    (funext fun a => by match a with | ⟨0, _⟩ => rfl)

/-- The maximum over the last axis at (p, q): the largest of the 50 logits. -/
theorem v18_at (p : Fin 64) (q : Fin 200) :
    val_main_v18 (F := Ideal) ids W b (ix2 p q) = rowMax (logit W b (rowOf (ids (ix2 p q)))) := by
  unfold val_main_v18
  refine (Host.reduce_eq_fold_single (FloatOps.maximumf (F := Ideal) (φ := .f32)) _ _
    reducesTo_S64x200x50_S64x200_d2 reduces_last h_S_ (ix2 p q)).trans ?_
  have hl : (val_main_v17 (F := Ideal) ids W b ∘ reduces_last.lift (ix2 p q))
      = logit W b (rowOf (ids (ix2 p q))) := by
    funext k
    have e : reduces_last.lift (ix2 p q) k = ix3 p q k := funext fun c => Fin.ext (by
      match c with
      | ⟨0, _⟩ => rfl
      | ⟨1, _⟩ => rfl
      | ⟨2, _⟩ => rfl)
    show val_main_v17 (F := Ideal) ids W b (reduces_last.lift (ix2 p q) k) = _
    rw [e]
    exact v17_at ids W b hids p q k
  rw [hl]
  rfl

/-- A further maximum with negative infinity changes nothing. -/
theorem v20_at (p : Fin 64) (q : Fin 200) :
    val_main_v20 (F := Ideal) ids W b (ix2 p q) = rowMax (logit W b (rowOf (ids (ix2 p q)))) := by
  rw [val_main_v20_apply, val_main_v19_apply, val_main_cst_3_apply, v18_at ids W b hids]
  show max (Ideal.ofBits .f32 0xFF800000#32) _ = _
  rw [ofBits_negInf]
  exact max_eq_right bot_le

/-- The maximum kept along the last axis, at (p, q, k). -/
theorem v22_at (p : Fin 64) (q : Fin 200) (k : Fin 50) :
    val_main_v22 (F := Ideal) ids W b (ix3 p q k) = rowMax (logit W b (rowOf (ids (ix2 p q)))) := by
  rw [val_main_v22_apply, val_main_v21_apply]
  exact (congrArg (val_main_v20 (F := Ideal) ids W b)
    (funext fun a => by match a with | ⟨0, _⟩ => rfl | ⟨1, _⟩ => rfl)).trans (v20_at ids W b hids p q)

/-- The exponential of a logit less the maximum, at (p, q, k). -/
theorem v24_at (p : Fin 64) (q : Fin 200) (k : Fin 50) :
    val_main_v24 (F := Ideal) ids W b (ix3 p q k) = shifted (logit W b (rowOf (ids (ix2 p q)))) k := by
  rw [val_main_v24_apply, val_main_v23_apply, v17_at ids W b hids, v22_at ids W b hids]
  rfl

/-- The sum of the 50 exponentials, from zero, at (p, q). -/
theorem v25_at (p : Fin 64) (q : Fin 200) :
    val_main_v25 (F := Ideal) ids W b (ix2 p q) = ∑ k : Fin 50, shifted (logit W b (rowOf (ids (ix2 p q)))) k := by
  rw [val_main_v25_apply, val_main_cst_4_apply]
  show Ideal.ofBits .f32 0x00000000#32 + _ = _
  rw [Ideal.ofBits_zero_f32, zero_add]
  refine Finset.sum_congr rfl fun k _ => ?_
  exact (congrArg (val_main_v24 (F := Ideal) ids W b)
    (funext fun a => by match a with | ⟨0, _⟩ => rfl | ⟨1, _⟩ => rfl | ⟨2, _⟩ => rfl)).trans
    (v24_at ids W b hids p q k)

/-- The sum kept along the last axis, at (p, q, k). -/
theorem v27_at (p : Fin 64) (q : Fin 200) (k : Fin 50) :
    val_main_v27 (F := Ideal) ids W b (ix3 p q k) = ∑ k' : Fin 50, shifted (logit W b (rowOf (ids (ix2 p q)))) k' := by
  rw [val_main_v27_apply, val_main_v26_apply]
  exact (congrArg (val_main_v25 (F := Ideal) ids W b)
    (funext fun a => by match a with | ⟨0, _⟩ => rfl | ⟨1, _⟩ => rfl)).trans (v25_at ids W b hids p q)

/-- The softmax weight at (p, q, k). -/
theorem v28_at (p : Fin 64) (q : Fin 200) (k : Fin 50) :
    val_main_v28 (F := Ideal) ids W b (ix3 p q k) = weight (logit W b (rowOf (ids (ix2 p q)))) k := by
  rw [val_main_v28_apply, v24_at ids W b hids, v27_at ids W b hids]
  rfl

/-- The contraction with the cluster table at (p, q, d): lane d of the mixture. -/
theorem v29_at (p : Fin 64) (q : Fin 200) (d : Fin 128) :
    val_main_v29 (F := Ideal) ids C W b (ix3 p q d) = mixture C (logit W b (rowOf (ids (ix2 p q)))) d := by
  rw [val_main_v29_apply]
  unfold mixture
  refine Finset.sum_congr rfl fun k _ => ?_
  have e1 : lidx_main_v29 (ix3 p q d) k = ix3 p q k :=
    funext fun a => by match a with | ⟨0, _⟩ => rfl | ⟨1, _⟩ => rfl | ⟨2, _⟩ => rfl
  have e2 : ridx_main_v29 (ix3 p q d) k = ix2 k d :=
    funext fun a => by match a with | ⟨0, _⟩ => rfl | ⟨1, _⟩ => rfl
  rw [e1, e2, v28_at ids W b hids]

end Stages

/-- Where every id lies in [0, 100000) the reference's last stage is `G` of its five arguments. -/
theorem ref_eq_G (ids : (⟨S64x200, .i32⟩ : BufTy).Contents (Elt Ideal)) (T : (⟨S100000x256, .f32⟩ : BufTy).Contents (Elt Ideal))
    (C : (⟨S50x128, .f32⟩ : BufTy).Contents (Elt Ideal)) (W : (⟨S50x100000, .f32⟩ : BufTy).Contents (Elt Ideal))
    (b : (⟨S50, .f32⟩ : BufTy).Contents (Elt Ideal)) (hids : ∀ i, (ids i).toNat < 100000) :
    val_main_v30 (F := Ideal) ids T C W b = Cert.HierEmbed.G ids T C W b := by
  funext i
  obtain ⟨p, q, j, rfl⟩ : ∃ (p : Fin 64) (q : Fin 200) (j : Fin 384), i = ix3 p q j := ⟨i 0, i 1, i 2, eq_ix3 i⟩
  unfold val_main_v30
  by_cases h : j.val < 256
  · rw [G_fine ids T C W b p q j h]
    refine (concatenate_pair_apply_left _ _ _ concatenates_S64x200x256_S64x200x128_S64x200x384_d2 (ix3 p q j) rfl
      (ix3 p q (⟨j.val, h⟩ : Fin 256)) ?_).trans (v6_at ids T hids p q ⟨j.val, h⟩)
    intro c
    match c with
    | ⟨0, _⟩ => rfl
    | ⟨1, _⟩ => rfl
    | ⟨2, _⟩ => rfl
  · have h2 : j.val - 256 < 128 := by have := j.isLt; omega
    rw [G_coarse ids T C W b p q j h]
    refine (concatenate_pair_apply_right _ _ _ concatenates_S64x200x256_S64x200x128_S64x200x384_d2 (ix3 p q j) rfl rfl
      (ix3 p q (⟨j.val - 256, h2⟩ : Fin 128)) ?_ ?_).trans (v29_at ids C W b hids p q ⟨j.val - 256, h2⟩)
    · intro c hc
      match c with
      | ⟨0, _⟩ => rfl
      | ⟨1, _⟩ => rfl
      | ⟨2, _⟩ => exact absurd rfl hc
    · show j.val - 256 + 256 = j.val
      omega

end Cert.HierEmbed.Ref

end
-- ==== Proof.lean ====
/-
  The kernel looks up, for each of 64 × 200 ids, a row of a [100000, 256] table, and beside it a mixture of the
  50 rows of a [50, 128] table under the softmax of 50 logits (a column of a [50, 100000] weight matrix plus a
  bias). Kernel and reference compute the same function `G` of the five arguments on the extended reals
  (Proof/Spec.lean): the same row, the same logits, the maximum folded from negative infinity, the same
  exponentials, sum, quotients and contraction with the cluster table. No law of arithmetic beyond
  max (−∞) x = x and 0 + x = x is needed, so finiteness of the float inputs is never used; what is used of the
  precondition is that every id lies in [0, 100000), so that it names a row of both tables
  (Proof/IdsRange.lean): on the kernel's side this puts every fetched block inside its array, on the
  reference's side it makes the wrap of negative ids and the clamp of the gather the identity.

  The three programs run to the end and keep their arguments (the frames); the idealized kernel's result is `G`
  (Proof/KernelValue.lean) and so is the reference's (Proof/RefValue.lean); nothing was rewritten to obtain the
  idealized kernel.
-/
import proofs.«424275_j25623774888460_2_alg».proof.Defs
import proofs.«424275_j25623774888460_2_alg».proof.Proof.Gen.Kernel
import proofs.«424275_j25623774888460_2_alg».proof.Proof.Gen.Kernel.Frame
import proofs.«424275_j25623774888460_2_alg».proof.Proof.Gen.KernelIdeal
import proofs.«424275_j25623774888460_2_alg».proof.Proof.Gen.KernelIdeal.Frame
import proofs.«424275_j25623774888460_2_alg».proof.Proof.Gen.ReferenceIdeal
import proofs.«424275_j25623774888460_2_alg».proof.Proof.Gen.Pre_finite_inputs
import proofs.«424275_j25623774888460_2_alg».proof.Proof.RefRead
import proofs.«424275_j25623774888460_2_alg».proof.Proof.IdsRange
import proofs.«424275_j25623774888460_2_alg».proof.Proof.OkKernel
import proofs.«424275_j25623774888460_2_alg».proof.Proof.OkKernelIdeal
import proofs.«424275_j25623774888460_2_alg».proof.Proof.KernelValue
import proofs.«424275_j25623774888460_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments: its ids name rows of the tables. -/
theorem frame_kernel : Cert.frame_Kernel := fun m ρ h =>
  Cert.Kernel.Gen.frame m ρ (Cert.Kernel.OkOfPre.ok_of_ids m fun i => Cert.HierEmbed.ids_lt (F := Bits) _ _ _ _ _ (h 0) i)

/-- So does the idealized kernel. -/
theorem frame_kernelIdeal : Cert.frame_KernelIdeal := fun m ρ h =>
  Cert.KernelIdeal.Gen.frame m ρ (Cert.KernelIdeal.OkOfPre.ok_of_ids m fun i => Cert.HierEmbed.ids_lt (F := Ideal) _ _ _ _ _ (h 0) i)

/-- The reference is a host program: its run keeps the arguments. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at `G` of arguments that agree. -/
theorem algebraic : Cert.algebraic_KernelIdeal_ReferenceIdeal := by
  intro m ρ m' ρ' hpre hagree
  have hids : ∀ i, (m (((0 : Dev Cert.KernelIdeal.nD) : Thread Cert.KernelIdeal.nD Cert.KernelIdeal.τ).loc Cert.KernelIdeal.main_arg0) i).toNat < 100000 :=
    fun i => Cert.HierEmbed.ids_lt (F := Ideal) _ _ _ _ _ (hpre 0) i
  have hO : Cert.KernelIdeal.Gen.Ok m := Cert.KernelIdeal.OkOfPre.ok_of_ids m hids
  refine ⟨fun c => Cert.HierEmbed.KernelValue.GArgs m c, Cert.HierEmbed.KernelValue.kernel_run m ρ hO hids, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v30_eq, (hagree 0).1, (hagree 0).2.1, (hagree 0).2.2.1, (hagree 0).2.2.2.1, (hagree 0).2.2.2.2]
  exact Cert.HierEmbed.Ref.ref_eq_G _ _ _ _ _ hids

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
